-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20 : Shape := ⟨1, ![20]⟩
abbrev S200000x1 : Shape := ⟨2, ![200000, 1]⟩
abbrev S200000x49 : Shape := ⟨2, ![200000, 49]⟩
abbrev S200000x50 : Shape := ⟨2, ![200000, 50]⟩
abbrev S_ : Shape := ⟨0, ![]⟩

class Facts : Prop where
  bcast_S_S20 : S_.BroadcastsInDim S20 (![] : Fin 0 → Fin S20.rank)
  reducesTo_S20_S_d0 : S20.ReducesTo [0] S_
  h_S_ : 0 < S_.numel
  bcast_S_S200000x1 : S_.BroadcastsInDim S200000x1 (![] : Fin 0 → Fin S200000x1.rank)
  reducesTo_S200000x1_S_d0_1 : S200000x1.ReducesTo [0, 1] S_
  bcast_S_S200000x49 : S_.BroadcastsInDim S200000x49 (![] : Fin 0 → Fin S200000x49.rank)
  reducesTo_S200000x49_S_d0_1 : S200000x49.ReducesTo [0, 1] S_
  bcast_S_S200000x50 : S_.BroadcastsInDim S200000x50 (![] : Fin 0 → Fin S200000x50.rank)
  reducesTo_S200000x50_S_d0_1 : S200000x50.ReducesTo [0, 1] S_

variable [Facts]

def fn_part2 {F : FTy → Type} [FloatOps F] (main_arg7 : FVec F S200000x50 .f32) (main_arg8 : FVec F S200000x50 .f32) (main_arg9 : FVec F S200000x50 .f32) (main_v33 : IVec S_ 1) : IVec S_ 1 :=
  let main_v34 : FVec F S200000x50 .f32 := Host.absf main_arg7
  let main_cst_12 : FVec F S_ .f32 := constant S_ .f32 0x7F800000#32
  let main_v35 : FVec F S200000x50 .f32 := broadcastInDim S200000x50 ![] bcast_S_S200000x50 main_cst_12
  let main_v36 : IVec S200000x50 1 := cmpf .olt main_v34 main_v35
  let main_c_13 : IVec S_ 1 := constantI S_ 1 1#1
  let main_v37 : IVec S_ 1 := (fun x v => Host.reduce IntOp.andi x v reducesTo_S200000x50_S_d0_1 h_S_) main_v36 main_c_13
  let main_v38 : IVec S_ 1 := andi main_v33 main_v37
  let main_v39 : FVec F S200000x50 .f32 := Host.absf main_arg8
  let main_cst_14 : FVec F S_ .f32 := constant S_ .f32 0x7F800000#32
  let main_v40 : FVec F S200000x50 .f32 := broadcastInDim S200000x50 ![] bcast_S_S200000x50 main_cst_14
  let main_v41 : IVec S200000x50 1 := cmpf .olt main_v39 main_v40
  let main_c_15 : IVec S_ 1 := constantI S_ 1 1#1
  let main_v42 : IVec S_ 1 := (fun x v => Host.reduce IntOp.andi x v reducesTo_S200000x50_S_d0_1 h_S_) main_v41 main_c_15
  let main_v43 : IVec S_ 1 := andi main_v38 main_v42
  let main_v44 : FVec F S200000x50 .f32 := Host.absf main_arg9
  let main_cst_16 : FVec F S_ .f32 := constant S_ .f32 0x7F800000#32
  let main_v45 : FVec F S200000x50 .f32 := broadcastInDim S200000x50 ![] bcast_S_S200000x50 main_cst_16
  let main_v46 : IVec S200000x50 1 := cmpf .olt main_v44 main_v45
  let main_c_17 : IVec S_ 1 := constantI S_ 1 1#1
  let main_v47 : IVec S_ 1 := (fun x v => Host.reduce IntOp.andi x v reducesTo_S200000x50_S_d0_1 h_S_) main_v46 main_c_17
  let main_v48 : IVec S_ 1 := andi main_v43 main_v47
  main_v48

def fn_part1 {F : FTy → Type} [FloatOps F] (main_arg4 : FVec F S200000x49 .f32) (main_arg5 : FVec F S200000x49 .f32) (main_arg6 : FVec F S200000x49 .f32) (main_arg7 : FVec F S200000x50 .f32) (main_arg8 : FVec F S200000x50 .f32) (main_arg9 : FVec F S200000x50 .f32) (main_v13 : IVec S_ 1) (main_v16 : IVec S200000x1 1) : IVec S_ 1 :=
  let main_c_5 : IVec S_ 1 := constantI S_ 1 1#1
  let main_v17 : IVec S_ 1 := (fun x v => Host.reduce IntOp.andi x v reducesTo_S200000x1_S_d0_1 h_S_) main_v16 main_c_5
  let main_v18 : IVec S_ 1 := andi main_v13 main_v17
  let main_v19 : FVec F S200000x49 .f32 := Host.absf main_arg4
  let main_cst_6 : FVec F S_ .f32 := constant S_ .f32 0x7F800000#32
  let main_v20 : FVec F S200000x49 .f32 := broadcastInDim S200000x49 ![] bcast_S_S200000x49 main_cst_6
  let main_v21 : IVec S200000x49 1 := cmpf .olt main_v19 main_v20
  let main_c_7 : IVec S_ 1 := constantI S_ 1 1#1
  let main_v22 : IVec S_ 1 := (fun x v => Host.reduce IntOp.andi x v reducesTo_S200000x49_S_d0_1 h_S_) main_v21 main_c_7
  let main_v23 : IVec S_ 1 := andi main_v18 main_v22
  let main_v24 : FVec F S200000x49 .f32 := Host.absf main_arg5
  let main_cst_8 : FVec F S_ .f32 := constant S_ .f32 0x7F800000#32
  let main_v25 : FVec F S200000x49 .f32 := broadcastInDim S200000x49 ![] bcast_S_S200000x49 main_cst_8
  let main_v26 : IVec S200000x49 1 := cmpf .olt main_v24 main_v25
  let main_c_9 : IVec S_ 1 := constantI S_ 1 1#1
  let main_v27 : IVec S_ 1 := (fun x v => Host.reduce IntOp.andi x v reducesTo_S200000x49_S_d0_1 h_S_) main_v26 main_c_9
  let main_v28 : IVec S_ 1 := andi main_v23 main_v27
  let main_v29 : FVec F S200000x49 .f32 := Host.absf main_arg6
  let main_cst_10 : FVec F S_ .f32 := constant S_ .f32 0x7F800000#32
  let main_v30 : FVec F S200000x49 .f32 := broadcastInDim S200000x49 ![] bcast_S_S200000x49 main_cst_10
  let main_v31 : IVec S200000x49 1 := cmpf .olt main_v29 main_v30
  let main_c_11 : IVec S_ 1 := constantI S_ 1 1#1
  let main_v32 : IVec S_ 1 := (fun x v => Host.reduce IntOp.andi x v reducesTo_S200000x49_S_d0_1 h_S_) main_v31 main_c_11
  let main_v33 : IVec S_ 1 := andi main_v28 main_v32
  fn_part2 (F := F) main_arg7 main_arg8 main_arg9 main_v33

def fn {F : FTy → Type} [FloatOps F] (main_arg0 : FVec F S20 .f32) (main_arg1 : FVec F S200000x1 .f32) (main_arg2 : FVec F S200000x1 .f32) (main_arg3 : FVec F S200000x1 .f32) (main_arg4 : FVec F S200000x49 .f32) (main_arg5 : FVec F S200000x49 .f32) (main_arg6 : FVec F S200000x49 .f32) (main_arg7 : FVec F S200000x50 .f32) (main_arg8 : FVec F S200000x50 .f32) (main_arg9 : FVec F S200000x50 .f32) : IVec S_ 1 :=
  let main_v0 : FVec F S20 .f32 := Host.absf main_arg0
  let main_cst : FVec F S_ .f32 := constant S_ .f32 0x7F800000#32
  let main_v1 : FVec F S20 .f32 := broadcastInDim S20 ![] bcast_S_S20 main_cst
  let main_v2 : IVec S20 1 := cmpf .olt main_v0 main_v1
  let main_c : IVec S_ 1 := constantI S_ 1 1#1
  let main_v3 : IVec S_ 1 := (fun x v => Host.reduce IntOp.andi x v reducesTo_S20_S_d0 h_S_) main_v2 main_c
  let main_v4 : FVec F S200000x1 .f32 := Host.absf main_arg1
  let main_cst_0 : FVec F S_ .f32 := constant S_ .f32 0x7F800000#32
  let main_v5 : FVec F S200000x1 .f32 := broadcastInDim S200000x1 ![] bcast_S_S200000x1 main_cst_0
  let main_v6 : IVec S200000x1 1 := cmpf .olt main_v4 main_v5
  let main_c_1 : IVec S_ 1 := constantI S_ 1 1#1
  let main_v7 : IVec S_ 1 := (fun x v => Host.reduce IntOp.andi x v reducesTo_S200000x1_S_d0_1 h_S_) main_v6 main_c_1
  let main_v8 : IVec S_ 1 := andi main_v3 main_v7
  let main_v9 : FVec F S200000x1 .f32 := Host.absf main_arg2
  let main_cst_2 : FVec F S_ .f32 := constant S_ .f32 0x7F800000#32
  let main_v10 : FVec F S200000x1 .f32 := broadcastInDim S200000x1 ![] bcast_S_S200000x1 main_cst_2
  let main_v11 : IVec S200000x1 1 := cmpf .olt main_v9 main_v10
  let main_c_3 : IVec S_ 1 := constantI S_ 1 1#1
  let main_v12 : IVec S_ 1 := (fun x v => Host.reduce IntOp.andi x v reducesTo_S200000x1_S_d0_1 h_S_) main_v11 main_c_3
  let main_v13 : IVec S_ 1 := andi main_v8 main_v12
  let main_v14 : FVec F S200000x1 .f32 := Host.absf main_arg3
  let main_cst_4 : FVec F S_ .f32 := constant S_ .f32 0x7F800000#32
  let main_v15 : FVec F S200000x1 .f32 := broadcastInDim S200000x1 ![] bcast_S_S200000x1 main_cst_4
  let main_v16 : IVec S200000x1 1 := cmpf .olt main_v14 main_v15
  fn_part1 (F := F) main_arg4 main_arg5 main_arg6 main_arg7 main_arg8 main_arg9 main_v13 main_v16
-- ==== Kernel.lean ====
abbrev S20 : Shape := ⟨1, ![20]⟩
abbrev S200000x1 : Shape := ⟨2, ![200000, 1]⟩
abbrev S200000x49 : Shape := ⟨2, ![200000, 49]⟩
abbrev S200000x50 : Shape := ⟨2, ![200000, 50]⟩
abbrev S49 : Shape := ⟨1, ![49]⟩
abbrev S49x50 : Shape := ⟨2, ![49, 50]⟩
abbrev S_ : Shape := ⟨0, ![]⟩
abbrev S49x1 : Shape := ⟨2, ![49, 1]⟩
abbrev S1x49 : Shape := ⟨2, ![1, 49]⟩
abbrev S1x1 : Shape := ⟨2, ![1, 1]⟩
abbrev S10000x49 : Shape := ⟨2, ![10000, 49]⟩
abbrev S10000x1 : Shape := ⟨2, ![10000, 1]⟩
abbrev S10000x50 : Shape := ⟨2, ![10000, 50]⟩
abbrev S1x50 : Shape := ⟨2, ![1, 50]⟩
abbrev S1x10000x50 : Shape := ⟨3, ![1, 10000, 50]⟩
abbrev S1 : Shape := ⟨1, ![1]⟩
abbrev S1x1x1 : Shape := ⟨3, ![1, 1, 1]⟩
abbrev S9999x50 : Shape := ⟨2, ![9999, 50]⟩
abbrev S1x9999x50 : Shape := ⟨3, ![1, 9999, 50]⟩
abbrev S1x1x50 : Shape := ⟨3, ![1, 1, 50]⟩

abbrev nBuf : Space → Nat
  | .hbm => 42
  | .vmem => 33
  | .smem => 0
  | _ => 0

abbrev bufTy : (tb : Table) → Fin (tcTables nBuf tb) → BufTy
  | .hbm, ⟨0, _⟩ => ⟨S20, .f32⟩
  | .hbm, ⟨1, _⟩ => ⟨S200000x1, .f32⟩
  | .hbm, ⟨2, _⟩ => ⟨S200000x1, .f32⟩
  | .hbm, ⟨3, _⟩ => ⟨S200000x1, .f32⟩
  | .hbm, ⟨4, _⟩ => ⟨S200000x49, .f32⟩
  | .hbm, ⟨5, _⟩ => ⟨S200000x49, .f32⟩
  | .hbm, ⟨6, _⟩ => ⟨S200000x49, .f32⟩
  | .hbm, ⟨7, _⟩ => ⟨S200000x50, .f32⟩
  | .hbm, ⟨8, _⟩ => ⟨S200000x50, .f32⟩
  | .hbm, ⟨9, _⟩ => ⟨S200000x50, .f32⟩
  | .hbm, ⟨10, _⟩ => ⟨S49, .i32⟩
  | .hbm, ⟨11, _⟩ => ⟨S49x50, .f32⟩
  | .hbm, ⟨12, _⟩ => ⟨S20, .f32⟩
  | .hbm, ⟨13, _⟩ => ⟨S_, .i32⟩
  | .hbm, ⟨14, _⟩ => ⟨S49, .i32⟩
  | .hbm, ⟨15, _⟩ => ⟨S49, .i1⟩
  | .hbm, ⟨16, _⟩ => ⟨S_, .i32⟩
  | .hbm, ⟨17, _⟩ => ⟨S49, .i32⟩
  | .hbm, ⟨18, _⟩ => ⟨S49, .i32⟩
  | .hbm, ⟨19, _⟩ => ⟨S49, .i32⟩
  | .hbm, ⟨20, _⟩ => ⟨S49x1, .i32⟩
  | .hbm, ⟨21, _⟩ => ⟨S49, .f32⟩
  | .hbm, ⟨22, _⟩ => ⟨S1x49, .f32⟩
  | .hbm, ⟨23, _⟩ => ⟨S200000x50, .f32⟩
  | .hbm, ⟨24, _⟩ => ⟨S200000x50, .f32⟩
  | .hbm, ⟨25, _⟩ => ⟨S200000x50, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S49x50, .f32⟩
  | .local _ .vmem, ⟨1, _⟩ => ⟨S1x49, .f32⟩
  | .local _ .vmem, ⟨2, _⟩ => ⟨S10000x49, .f32⟩
  | .local _ .vmem, ⟨3, _⟩ => ⟨S10000x49, .f32⟩
  | .local _ .vmem, ⟨4, _⟩ => ⟨S10000x49, .f32⟩
  | .local _ .vmem, ⟨5, _⟩ => ⟨S10000x49, .f32⟩
  | .local _ .vmem, ⟨6, _⟩ => ⟨S10000x49, .f32⟩
  | .local _ .vmem, ⟨7, _⟩ => ⟨S10000x49, .f32⟩
  | .local _ .vmem, ⟨8, _⟩ => ⟨S10000x1, .f32⟩
  | .local _ .vmem, ⟨9, _⟩ => ⟨S10000x1, .f32⟩
  | .local _ .vmem, ⟨10, _⟩ => ⟨S10000x1, .f32⟩
  | .local _ .vmem, ⟨11, _⟩ => ⟨S10000x1, .f32⟩
  | .local _ .vmem, ⟨12, _⟩ => ⟨S10000x1, .f32⟩
  | .local _ .vmem, ⟨13, _⟩ => ⟨S10000x1, .f32⟩
  | .local _ .vmem, ⟨14, _⟩ => ⟨S10000x50, .f32⟩
  | .local _ .vmem, ⟨15, _⟩ => ⟨S10000x50, .f32⟩
  | .local _ .vmem, ⟨16, _⟩ => ⟨S10000x50, .f32⟩
  | .local _ .vmem, ⟨17, _⟩ => ⟨S10000x50, .f32⟩
  | .local _ .vmem, ⟨18, _⟩ => ⟨S10000x50, .f32⟩
  | .local _ .vmem, ⟨19, _⟩ => ⟨S10000x50, .f32⟩
  | .local _ .vmem, ⟨20, _⟩ => ⟨S10000x50, .f32⟩
  | .local _ .vmem, ⟨21, _⟩ => ⟨S10000x50, .f32⟩
  | .local _ .vmem, ⟨22, _⟩ => ⟨S10000x50, .f32⟩
  | .local _ .vmem, ⟨23, _⟩ => ⟨S10000x50, .f32⟩
  | .local _ .vmem, ⟨24, _⟩ => ⟨S10000x50, .f32⟩
  | .local _ .vmem, ⟨25, _⟩ => ⟨S10000x50, .f32⟩
  | .local _ .vmem, ⟨26, _⟩ => ⟨S1x1, .f32⟩
  | .local _ .vmem, ⟨27, _⟩ => ⟨S1x1, .f32⟩
  | .local _ .vmem, ⟨28, _⟩ => ⟨S1x50, .f32⟩
  | .local _ .vmem, ⟨29, _⟩ => ⟨S1x50, .f32⟩
  | .local _ .vmem, ⟨30, _⟩ => ⟨S1x50, .f32⟩
  | .local _ .vmem, ⟨31, _⟩ => ⟨S1x1, .f32⟩
  | .local _ .vmem, ⟨32, _⟩ => ⟨S1x1, .f32⟩
  | _, _ => ⟨S20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_cst : Ref sig .tc := ⟨.hbm, 11, rfl⟩
abbrev main_v0 : Ref sig .tc := ⟨.hbm, 12, rfl⟩
abbrev main_c_0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev main_v9_4 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_v14 : Ref sig .tc := ⟨.hbm, 35, rfl⟩
abbrev main_cst_5 : Ref sig .tc := ⟨.hbm, 36, rfl⟩
abbrev main_v15 : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![20], ![false]⟩

def k0_cond3 (i : grid0.Coords) : BitVec 1 :=
  let arg0 : BitVec 32 := BitVec.ofNat 32 (i 0).val
  let c19_i32 : BitVec 32 := 19#32
  let v100 : BitVec 1 := Scalar.cmpi .eq arg0 c19_i32
  let v101 : BitVec 32 := Scalar.extui v100
  let c0_i32_49 : BitVec 32 := 0#32
  let v102 : BitVec 1 := Scalar.cmpi .ne v101 c0_i32_49
  v102

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S49x50 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x49 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x49 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x49 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S10000x50 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S10000x50 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S10000x50 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S10000x50 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S10000x50 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S10000x50 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

class Facts₀ : Prop where
  bcast_S_S49 : S_.BroadcastsInDim S49 (![] : Fin 0 → Fin S49.rank)
  bcast_S49_S49x1_0 : S49.BroadcastsInDim S49x1 (![0] : Fin 1 → Fin S49x1.rank)
  shapeCasts_S49_S1x49 : S49.ShapeCasts S1x49
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x49_S10000x49_0_0 : ∀ a, (![0, 0] : Fin 2 → Nat) a + S10000x49.size a ≤ S10000x49.size a
  h_S10000x49 : 0 < S10000x49.numel
  inb_S1x49_S1x49_0_0 : ∀ a, (![0, 0] : Fin 2 → Nat) a + S1x49.size a ≤ S1x49.size a
  h_S1x49 : 0 < S1x49.numel
  shapeCasts_S1x49_S1x49 : S1x49.ShapeCasts S1x49
  broadcasts_S1x49_S10000x49 : S1x49.Broadcasts S10000x49
  inb_S49x50_S49x50_0_0 : ∀ a, (![0, 0] : Fin 2 → Nat) a + S49x50.size a ≤ S49x50.size a
  h_S49x50 : 0 < S49x50.numel
  inb_S10000x1_S10000x1_0_0 : ∀ a, (![0, 0] : Fin 2 → Nat) a + S10000x1.size a ≤ S10000x1.size a
  h_S10000x1 : 0 < S10000x1.numel
  broadcasts_S10000x1_S10000x50 : S10000x1.Broadcasts S10000x50
  inb_S10000x50_S10000x50_0_0 : ∀ a, (![0, 0] : Fin 2 → Nat) a + S10000x50.size a ≤ S10000x50.size a
  h_S10000x50 : 0 < S10000x50.numel
  shapeCasts_S10000x50_S1x10000x50 : S10000x50.ShapeCasts S1x10000x50
  reduces_S1x10000x50_S1 : S1x10000x50.Reduces [1, 2] S1
  shapeCasts_S1_S1x1x1 : S1.ShapeCasts S1x1x1
  inpos_S1x1x1_p0_0_0 : ∀ a, (![0, 0, 0] : Fin 3 → Nat) a < S1x1x1.size a
  slices_S10000x50_o0_0_S9999x50 : S10000x50.Slices ![0, 0] S9999x50
  slices_S10000x50_o1_0_S9999x50 : S10000x50.Slices ![1, 0] S9999x50
  shapeCasts_S9999x50_S1x9999x50 : S9999x50.ShapeCasts S1x9999x50
  reduces_S1x9999x50_S1 : S1x9999x50.Reduces [1, 2] S1
  inb_S1x50_S1x50_0_0 : ∀ a, (![0, 0] : Fin 2 → Nat) a + S1x50.size a ≤ S1x50.size a
  h_S1x50 : 0 < S1x50.numel
  slices_S10000x50_o0_0_S1x50 : S10000x50.Slices ![0, 0] S1x50
  shapeCasts_S1x50_S1x1x50 : S1x50.ShapeCasts S1x1x50
  reduces_S1x1x50_S1 : S1x1x50.Reduces [1, 2] S1
  slices_S10000x50_o9999_0_S1x50 : S10000x50.Slices ![9999, 0] S1x50
  shapeCasts_S1x50_S1x50 : S1x50.ShapeCasts S1x50
  shapeCasts_S1x1_S_ : S1x1.ShapeCasts S_
  reducesTo_S20_S_d0 : S20.ReducesTo [0] S_
  h_S_ : 0 < S_.numel
  gather_S20_S49x1_S49_n_0_n_n_0_1_1_wf : GatherDims.WF S20 S49x1 S49 [] [0] [] [0] [] 1 ![1]
  dot_S10000x49_S49x50_S10000x50_1_0_0_1_n_n_wf : DotDims.WF S10000x49 S49x50 S10000x50 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S49x50.size a ≤ S49x50.size a
  hwx0_0 : ∀ i : grid0.Coords, EltTy.bits .f32 = 32 ∨ (Rect.block (s := S49x50) S49x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x49.size a ≤ S1x49.size a
  hwx0_1 : ∀ i : grid0.Coords, EltTy.bits .f32 = 32 ∨ (Rect.block (s := S1x49) S1x49.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x49.size a ≤ S200000x49.size a
  hwx0_2 : ∀ i : grid0.Coords, EltTy.bits .f32 = 32 ∨ (Rect.block (s := S200000x49) S10000x49.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x49.size a ≤ S200000x49.size a
  hwx0_3 : ∀ i : grid0.Coords, EltTy.bits .f32 = 32 ∨ (Rect.block (s := S200000x49) S10000x49.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x49.size a ≤ S200000x49.size a
  hwx0_4 : ∀ i : grid0.Coords, EltTy.bits .f32 = 32 ∨ (Rect.block (s := S200000x49) S10000x49.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x1.size a ≤ S200000x1.size a
  hwx0_5 : ∀ i : grid0.Coords, EltTy.bits .f32 = 32 ∨ (Rect.block (s := S200000x1) S10000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x1.size a ≤ S200000x1.size a
  hwx0_6 : ∀ i : grid0.Coords, EltTy.bits .f32 = 32 ∨ (Rect.block (s := S200000x1) S10000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x1.size a ≤ S200000x1.size a
  hwx0_7 : ∀ i : grid0.Coords, EltTy.bits .f32 = 32 ∨ (Rect.block (s := S200000x1) S10000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x50.size a ≤ S200000x50.size a
  hwx0_8 : ∀ i : grid0.Coords, EltTy.bits .f32 = 32 ∨ (Rect.block (s := S200000x50) S10000x50.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x50.size a ≤ S200000x50.size a
  hwx0_9 : ∀ i : grid0.Coords, EltTy.bits .f32 = 32 ∨ (Rect.block (s := S200000x50) S10000x50.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x50.size a ≤ S200000x50.size a
  hwx0_10 : ∀ i : grid0.Coords, EltTy.bits .f32 = 32 ∨ (Rect.block (s := S200000x50) S10000x50.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S10000x50.size a ≤ S200000x50.size a
  hwx0_11 : ∀ i : grid0.Coords, EltTy.bits .f32 = 32 ∨ (Rect.block (s := S200000x50) S10000x50.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S10000x50.size a ≤ S200000x50.size a
  hwx0_12 : ∀ i : grid0.Coords, EltTy.bits .f32 = 32 ∨ (Rect.block (s := S200000x50) S10000x50.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S10000x50.size a ≤ S200000x50.size a
  hwx0_13 : ∀ i : grid0.Coords, EltTy.bits .f32 = 32 ∨ (Rect.block (s := S200000x50) S10000x50.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)

variable [Facts₀]

def gather_S20_S49x1_S49_n_0_n_n_0_1_1 : GatherDims S20 S49x1 S49 where
  offsetDims := []
  collapsedSliceDims := [0]
  operandBatchingDims := []
  startIndicesBatchingDims := []
  startIndexMap := [0]
  indexVectorDim := 1
  sliceSizes := ![1]
  wf := gather_S20_S49x1_S49_n_0_n_n_0_1_1_wf
def dot_S10000x49_S49x50_S10000x50_1_0_0_1_n_n : DotDims S10000x49 S49x50 S10000x50 where
  lhsContracting := [1]
  rhsContracting := [0]
  lhsNonContracting := [0]
  rhsNonContracting := [1]
  lhsBatch := []
  rhsBatch := []
  wf := dot_S10000x49_S49x50_S10000x50_1_0_0_1_n_n_wf

abbrev win0_0 : Pipeline.Window sig grid0 :=
  Pipeline.Window.ofSpec (Memref.whole main_cst) S49x50.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x49.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S10000x49.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S10000x49.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S10000x49.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S10000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S10000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S10000x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S10000x50.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S10000x50.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S10000x50.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_0) S10000x50.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_1) S10000x50.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v9_2) S10000x50.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9_3) S1x1.size cc0_transform_14 reads0_14 true true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9_4) S1x1.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond3 i == 1#1) | 15 => fun i => !(k0_cond3 i == 1#1) | ⟨_ + 16, h⟩ => absurd h (Nat.not_lt.2 (Nat.le_add_left _ _))

class Facts : Prop extends Facts₀ where

variable [Facts]
-- ==== ReferenceIdeal.lean ====
abbrev S20 : Shape := ⟨1, ![20]⟩
abbrev S200000x1 : Shape := ⟨2, ![200000, 1]⟩
abbrev S200000x49 : Shape := ⟨2, ![200000, 49]⟩
abbrev S200000x50 : Shape := ⟨2, ![200000, 50]⟩
abbrev S49 : Shape := ⟨1, ![49]⟩
abbrev S49x50 : Shape := ⟨2, ![49, 50]⟩
abbrev S_ : Shape := ⟨0, ![]⟩
abbrev S49x1 : Shape := ⟨2, ![49, 1]⟩
abbrev S1x49 : Shape := ⟨2, ![1, 49]⟩
abbrev S199999x50 : Shape := ⟨2, ![199999, 50]⟩

abbrev nBuf : Space → Nat
  | .hbm => 90
  | .vmem => 0
  | .smem => 0
  | _ => 0

abbrev bufTy : (tb : Table) → Fin (tcTables nBuf tb) → BufTy
  | .hbm, ⟨0, _⟩ => ⟨S20, .f32⟩
  | .hbm, ⟨1, _⟩ => ⟨S200000x1, .f32⟩
  | .hbm, ⟨2, _⟩ => ⟨S200000x1, .f32⟩
  | .hbm, ⟨3, _⟩ => ⟨S200000x1, .f32⟩
  | .hbm, ⟨4, _⟩ => ⟨S200000x49, .f32⟩
  | .hbm, ⟨5, _⟩ => ⟨S200000x49, .f32⟩
  | .hbm, ⟨6, _⟩ => ⟨S200000x49, .f32⟩
  | .hbm, ⟨7, _⟩ => ⟨S200000x50, .f32⟩
  | .hbm, ⟨8, _⟩ => ⟨S200000x50, .f32⟩
  | .hbm, ⟨9, _⟩ => ⟨S200000x50, .f32⟩
  | .hbm, ⟨10, _⟩ => ⟨S49, .i32⟩
  | .hbm, ⟨11, _⟩ => ⟨S49x50, .f32⟩
  | .hbm, ⟨12, _⟩ => ⟨S20, .f32⟩
  | .hbm, ⟨13, _⟩ => ⟨S_, .i32⟩
  | .hbm, ⟨14, _⟩ => ⟨S49, .i32⟩
  | .hbm, ⟨15, _⟩ => ⟨S49, .i1⟩
  | .hbm, ⟨16, _⟩ => ⟨S_, .i32⟩
  | .hbm, ⟨17, _⟩ => ⟨S49, .i32⟩
  | .hbm, ⟨18, _⟩ => ⟨S49, .i32⟩
  | .hbm, ⟨19, _⟩ => ⟨S49, .i32⟩
  | .hbm, ⟨20, _⟩ => ⟨S49x1, .i32⟩
  | .hbm, ⟨21, _⟩ => ⟨S49, .f32⟩
  | .hbm, ⟨22, _⟩ => ⟨S200000x49, .f32⟩
  | .hbm, ⟨23, _⟩ => ⟨S200000x49, .f32⟩
  | .hbm, ⟨24, _⟩ => ⟨S200000x49, .f32⟩
  | .hbm, ⟨25, _⟩ => ⟨S200000x49, .f32⟩
  | .hbm, ⟨26, _⟩ => ⟨S200000x49, .f32⟩
  | .hbm, ⟨27, _⟩ => ⟨S200000x49, .f32⟩
  | .hbm, ⟨28, _⟩ => ⟨S_, .f32⟩
  | .hbm, ⟨29, _⟩ => ⟨S200000x49, .f32⟩
  | .hbm, ⟨30, _⟩ => ⟨S200000x49, .f32⟩
  | .hbm, ⟨31, _⟩ => ⟨S1x49, .f32⟩
  | .hbm, ⟨32, _⟩ => ⟨S200000x49, .f32⟩
  | .hbm, ⟨33, _⟩ => ⟨S200000x49, .f32⟩
  | .hbm, ⟨34, _⟩ => ⟨S200000x49, .f32⟩
  | .hbm, ⟨35, _⟩ => ⟨S1x49, .f32⟩
  | .hbm, ⟨36, _⟩ => ⟨S200000x49, .f32⟩
  | .hbm, ⟨37, _⟩ => ⟨S200000x49, .f32⟩
  | .hbm, ⟨38, _⟩ => ⟨S200000x49, .f32⟩
  | .hbm, ⟨39, _⟩ => ⟨S1x49, .f32⟩
  | .hbm, ⟨40, _⟩ => ⟨S200000x49, .f32⟩
  | .hbm, ⟨41, _⟩ => ⟨S200000x49, .f32⟩
  | .hbm, ⟨42, _⟩ => ⟨S200000x49, .f32⟩
  | .hbm, ⟨43, _⟩ => ⟨S200000x50, .f32⟩
  | .hbm, ⟨44, _⟩ => ⟨S200000x50, .f32⟩
  | .hbm, ⟨45, _⟩ => ⟨S200000x50, .f32⟩
  | .hbm, ⟨46, _⟩ => ⟨S200000x50, .f32⟩
  | .hbm, ⟨47, _⟩ => ⟨S200000x50, .f32⟩
  | .hbm, ⟨48, _⟩ => ⟨S200000x50, .f32⟩
  | .hbm, ⟨49, _⟩ => ⟨S200000x50, .f32⟩
  | .hbm, ⟨50, _⟩ => ⟨S200000x50, .f32⟩
  | .hbm, ⟨51, _⟩ => ⟨S200000x50, .f32⟩
  | .hbm, ⟨52, _⟩ => ⟨S200000x50, .f32⟩
  | .hbm, ⟨53, _⟩ => ⟨S200000x50, .f32⟩
  | .hbm, ⟨54, _⟩ => ⟨S200000x50, .f32⟩
  | .hbm, ⟨55, _⟩ => ⟨S200000x50, .f32⟩
  | .hbm, ⟨56, _⟩ => ⟨S200000x50, .f32⟩
  | .hbm, ⟨57, _⟩ => ⟨S200000x50, .f32⟩
  | .hbm, ⟨58, _⟩ => ⟨S200000x50, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S20, .f32⟩
  | .hbm, ⟨64, _⟩ => ⟨S_, .f32⟩
  | .hbm, ⟨65, _⟩ => ⟨S_, .f32⟩
  | .hbm, ⟨66, _⟩ => ⟨S199999x50, .f32⟩
  | .hbm, ⟨67, _⟩ => ⟨S199999x50, .f32⟩
  | .hbm, ⟨68, _⟩ => ⟨S199999x50, .f32⟩
  | .hbm, ⟨69, _⟩ => ⟨S199999x50, .f32⟩
  | .hbm, ⟨70, _⟩ => ⟨S199999x50, .f32⟩
  | .hbm, ⟨71, _⟩ => ⟨S199999x50, .f32⟩
  | .hbm, ⟨72, _⟩ => ⟨S199999x50, .f32⟩
  | .hbm, ⟨73, _⟩ => ⟨S199999x50, .f32⟩
  | .hbm, ⟨74, _⟩ => ⟨S199999x50, .f32⟩
  | .hbm, ⟨75, _⟩ => ⟨S199999x50, .f32⟩
  | .hbm, ⟨76, _⟩ => ⟨S199999x50, .f32⟩
  | .hbm, ⟨77, _⟩ => ⟨S199999x50, .f32⟩
  | .hbm, ⟨78, _⟩ => ⟨S199999x50, .f32⟩
  | .hbm, ⟨79, _⟩ => ⟨S199999x50, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_cst : Ref sig .tc := ⟨.hbm, 11, rfl⟩
abbrev main_v0 : Ref sig .tc := ⟨.hbm, 12, rfl⟩
abbrev main_c_0 : Ref sig .tc := ⟨.hbm, 13, rfl⟩
abbrev main_v1 : Ref sig .tc := ⟨.hbm, 14, rfl⟩
abbrev main_v2 : Ref sig .tc := ⟨.hbm, 15, rfl⟩
abbrev main_c_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]

class Facts₀ : Prop where
  bcast_S_S49 : S_.BroadcastsInDim S49 (![] : Fin 0 → Fin S49.rank)
  bcast_S49_S49x1_0 : S49.BroadcastsInDim S49x1 (![0] : Fin 1 → Fin S49x1.rank)
  bcast_S_S200000x49 : S_.BroadcastsInDim S200000x49 (![] : Fin 0 → Fin S200000x49.rank)
  bcast_S49_S1x49_1 : S49.BroadcastsInDim S1x49 (![1] : Fin 1 → Fin S1x49.rank)
  bcast_S1x49_S200000x49_0_1 : S1x49.BroadcastsInDim S200000x49 (![0, 1] : Fin 2 → Fin S200000x49.rank)
  bcast_S200000x1_S200000x50_0_1 : S200000x1.BroadcastsInDim S200000x50 (![0, 1] : Fin 2 → Fin S200000x50.rank)
  reducesTo_S200000x50_S_d0_1 : S200000x50.ReducesTo [0, 1] S_
  h_S_ : 0 < S_.numel
  reducesTo_S20_S_d0 : S20.ReducesTo [0] S_
  slices_S200000x50_S199999x50_0_0 : S200000x50.Slices ![0, 0] S199999x50
  slices_S200000x50_S199999x50_1_0 : S200000x50.Slices ![1, 0] S199999x50
  reducesTo_S199999x50_S_d0_1 : S199999x50.ReducesTo [0, 1] S_
  gather_S20_S49x1_S49_n_0_n_n_0_1_1_wf : GatherDims.WF S20 S49x1 S49 [] [0] [] [0] [] 1 ![1]
  dot_S200000x49_S49x50_S200000x50_1_0_0_1_n_n_wf : DotDims.WF S200000x49 S49x50 S200000x50 [1] [0] [0] [1] [] []

variable [Facts₀]

def gather_S20_S49x1_S49_n_0_n_n_0_1_1 : GatherDims S20 S49x1 S49 where
  offsetDims := []
  collapsedSliceDims := [0]
  operandBatchingDims := []
  startIndicesBatchingDims := []
  startIndexMap := [0]
  indexVectorDim := 1
  sliceSizes := ![1]
  wf := gather_S20_S49x1_S49_n_0_n_n_0_1_1_wf
def dot_S200000x49_S49x50_S200000x50_1_0_0_1_n_n : DotDims S200000x49 S49x50 S200000x50 where
  lhsContracting := [1]
  rhsContracting := [0]
  lhsNonContracting := [0]
  rhsNonContracting := [1]
  lhsBatch := []
  rhsBatch := []
  wf := dot_S200000x49_S49x50_S200000x50_1_0_0_1_n_n_wf

class Facts : Prop extends Facts₀ where

variable [Facts]
-- ==== Proof.Entry.lean ====
/-
  One entry of each array the two programs compute, as a function of extended reals.

  A limb's step in one coordinate u is l * u / (sqrt(a*a + b*b + c*c) + eps), with (a, b, c) the limb's direction and
  l its bone's length; a joint's coordinate is its root's plus the sum over the 49 limbs of the step times the path
  matrix's 0/1 entry; the loss entry is w * (x - tx)^2 + w * (y - ty)^2 and the displacement entry is the squared
  distance between a joint's positions in two consecutive frames. The products are written as the programs compute
  them (no powers, the same grouping of the sums of three squares).
-/
import Idealize.ShloMosaic.PureOps.Ideal

noncomputable section

open scoped BigOperators

namespace Cert.Joints

open Idealize.ShloMosaic

/-- The literal the programs add to a direction's length (the f32 nearest to 1e-10), as both print it. -/
def eps : EReal := Ideal.ofBits .f32 0x2EDBE6FF#32

/-- One coordinate u of a limb's step. -/
def stepE (l u a b c : EReal) : EReal := Ideal.div (l * u) (Ideal.sqrt (a * a + b * b + c * c) + eps)

/-- One coordinate of a joint: the root's plus the steps of the limbs on its path. -/
def posE (r : EReal) (l u a b c p : Fin 49 → EReal) : EReal :=
  r + ∑ k : Fin 49, stepE (l k) (u k) (a k) (b k) (c k) * p k

/-- The weighted squared distance to the target in x and y. -/
def lossE (x y tx ty w : EReal) : EReal := w * ((x - tx) * (x - tx)) + w * ((y - ty) * (y - ty))

/-- The squared displacement between two consecutive frames. -/
def regE (x x' y y' z z' : EReal) : EReal := (x - x') * (x - x') + (y - y') * (y - y') + (z - z') * (z - z')

end Cert.Joints

end
-- ==== Proof.Sums.lean ====
/-
  Sums of extended reals over rows of a two-axis array, as sums over ranges of natural numbers.

  A two-axis array is read at natural-number coordinates (zero outside its extents), so that a sum over
  all its entries is a double sum over ranges, and a range of rows splits into consecutive stretches:
  the sum over the first a + b rows is the sum over the first a rows plus the sum over the next b.
  Addition of extended reals is commutative and associative (bot absorbs), so every regrouping used
  here holds with no finiteness assumption.
-/
import Idealize.ShloMosaic.Lib.ValueIdx
import Idealize.ShloMosaic.PureOps.Ideal.Laws

noncomputable section

open scoped BigOperators

namespace Cert.Sums

open Idealize.ShloMosaic Idealize.ShloMosaic.ValueIdx

/-- An array with two axes read at natural-number coordinates: zero outside its extents. -/
def nat2 {n c : Nat} (x : (⟨2, ![n, c]⟩ : Shape).Idx → EReal) (r q : Nat) : EReal :=
  if h : r < n ∧ q < c then x (ix2 ⟨r, h.1⟩ ⟨q, h.2⟩) else 0

theorem nat2_val {n c : Nat} (x : (⟨2, ![n, c]⟩ : Shape).Idx → EReal) (r : Fin n) (q : Fin c) :
    nat2 x r.val q.val = x (ix2 r q) := by
  unfold nat2
  rw [dif_pos ⟨r.isLt, q.isLt⟩]

theorem nat2_of_lt {n c : Nat} (x : (⟨2, ![n, c]⟩ : Shape).Idx → EReal) (r q : Nat) (hr : r < n) (hq : q < c) :
    nat2 x r q = x (ix2 ⟨r, hr⟩ ⟨q, hq⟩) := by
  unfold nat2
  rw [dif_pos ⟨hr, hq⟩]

/-- The sum of f over the first n rows and the first c columns. -/
def tot (f : Nat → Nat → EReal) (n c : Nat) : EReal := ∑ r ∈ Finset.range n, ∑ q ∈ Finset.range c, f r q

theorem tot_zero (f : Nat → Nat → EReal) (c : Nat) : tot f 0 c = 0 := by
  unfold tot; simp

/-- The first a + b rows are the first a rows and then b more. -/
theorem tot_add (f : Nat → Nat → EReal) (a b c : Nat) :
    tot f (a + b) c = tot f a c + tot (fun r => f (a + r)) b c := by
  unfold tot
  exact Finset.sum_range_add _ a b

theorem tot_succ (f : Nat → Nat → EReal) (a c : Nat) :
    tot f (a + 1) c = tot f a c + ∑ q ∈ Finset.range c, f a q := by
  unfold tot
  exact Finset.sum_range_succ _ a

theorem tot_congr {f g : Nat → Nat → EReal} {n c : Nat} (h : ∀ r q, r < n → q < c → f r q = g r q) :
    tot f n c = tot g n c := by
  unfold tot
  exact Finset.sum_congr rfl fun r hr => Finset.sum_congr rfl fun q hq =>
    h r q (Finset.mem_range.mp hr) (Finset.mem_range.mp hq)

/-- The sum of all entries of a two-axis array whose entry (p, q) is f p q. -/
theorem sum_idx_eq_tot {n c : Nat} (v : (⟨2, ![n, c]⟩ : Shape).Idx → EReal) (f : Nat → Nat → EReal)
    (h : ∀ (p : Fin n) (q : Fin c), v (ix2 p q) = f p.val q.val) : ∑ y, v y = tot f n c := by
  rw [sum_idx2]
  unfold tot
  rw [Finset.sum_range]
  refine Finset.sum_congr rfl fun p _ => ?_
  rw [Finset.sum_range]
  exact Finset.sum_congr rfl fun q _ => h p q

/-- The sum of all entries of a row vector whose entry (0, q) is f q. -/
theorem sum_row_eq {c : Nat} (v : (⟨2, ![1, c]⟩ : Shape).Idx → EReal) (f : Nat → EReal)
    (h : ∀ q : Fin c, v (ix2 0 q) = f q.val) : ∑ y, v y = ∑ q ∈ Finset.range c, f q := by
  rw [sum_idx_eq_tot v (fun _ q => f q) (fun p q => by
    have hp : p = 0 := Fin.ext (by have := p.isLt; omega)
    subst hp; exact h q)]
  unfold tot
  simp

/-- The sum over an array with a leading unit axis is the sum over the array without it. -/
theorem sum_unit_axis {n c : Nat} (v : (⟨3, ![1, n, c]⟩ : Shape).Idx → EReal) :
    ∑ i, v i = ∑ y : (⟨2, ![n, c]⟩ : Shape).Idx, v (ix3 0 (y 0) (y 1)) := by
  refine (Fintype.sum_equiv
    { toFun := fun y : (⟨2, ![n, c]⟩ : Shape).Idx => (ix3 (0 : Fin 1) (y 0) (y 1) : (⟨3, ![1, n, c]⟩ : Shape).Idx)
      invFun := fun i => ix2 (i 1) (i 2)
      left_inv := fun y => (eq_ix2 y).symm
      right_inv := fun i => by
        have h1 : (i 0).val < 1 := (i 0).isLt
        have h0 : (0 : Fin 1) = i 0 := Fin.ext (by show 0 = (i 0).val; omega)
        exact (congrArg (fun z => (ix3 z (i 1) (i 2) : (⟨3, ![1, n, c]⟩ : Shape).Idx)) h0).trans (eq_ix3 i).symm } _ _ (fun _ => rfl)).symm

end Cert.Sums

end
-- ==== Proof.KPay.lean ====
/-
  The kernel body's pure values read at coordinates, over the extended reals.

  One grid point holds 10000 frames. A joint coordinate's block is, at (frame p, joint q), the root's entry of frame p
  plus the sum over the 49 limbs k of the limb's step l k * u (p, k) / (sqrt (a*a + b*b + c*c) + eps) times the path
  matrix's entry (k, q): the lengths' row is broadcast down the rows, the product with the path matrix is accumulated
  into zero, and the root's column is broadcast along the row. The loss accumulator receives the sum over the block of
  w * (x - tx)^2 + w * (y - ty)^2; the displacement accumulator receives the sum over the 9999 pairs of consecutive
  frames of the squared distance, and the sum over the one boundary row between the previous block's last frame and
  this block's first. A sum over an array with a leading unit axis is the sum over the array without it, and the
  one-entry array has a single index.
-/
import proofs.«158102_j3590592659458_1_alg».proof.Proof.Gen.KernelIdeal.Skeleton
import proofs.«158102_j3590592659458_1_alg».proof.Proof.Entry
import proofs.«158102_j3590592659458_1_alg».proof.Proof.Sums
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx
open _root_.Cert.Joints

/-! ## The contraction's index maps, one axis at a time -/

theorem lhs_dot_0 (j : S10000x50.Idx) (k : dot_S10000x49_S49x50_S10000x50_1_0_0_1_n_n.contr.Idx) :
    (dot_S10000x49_S49x50_S10000x50_1_0_0_1_n_n.lhsIdx j k 0).val = (j 0).val := by
  unfold DotDims.lhsIdx
  rw [dif_neg (show ¬(0 : Fin S10000x49.rank) ∈ dot_S10000x49_S49x50_S10000x50_1_0_0_1_n_n.lhsBatch by decide),
    dif_pos (show (0 : Fin S10000x49.rank) ∈ dot_S10000x49_S49x50_S10000x50_1_0_0_1_n_n.lhsNonContracting by decide)]
  rfl

theorem lhs_dot_1 (j : S10000x50.Idx) (k : dot_S10000x49_S49x50_S10000x50_1_0_0_1_n_n.contr.Idx) :
    (dot_S10000x49_S49x50_S10000x50_1_0_0_1_n_n.lhsIdx j k 1).val = (k ⟨0, by decide⟩).val :=
  dot_S10000x49_S49x50_S10000x50_1_0_0_1_n_n.lhsIdx_val_of_single (cl := 1) rfl j k

theorem rhs_dot_0 (j : S10000x50.Idx) (k : dot_S10000x49_S49x50_S10000x50_1_0_0_1_n_n.contr.Idx) :
    (dot_S10000x49_S49x50_S10000x50_1_0_0_1_n_n.rhsIdx j k 0).val = (k ⟨0, by decide⟩).val :=
  dot_S10000x49_S49x50_S10000x50_1_0_0_1_n_n.rhsIdx_val_of_single (cr := 0) rfl j k

theorem rhs_dot_1 (j : S10000x50.Idx) (k : dot_S10000x49_S49x50_S10000x50_1_0_0_1_n_n.contr.Idx) :
    (dot_S10000x49_S49x50_S10000x50_1_0_0_1_n_n.rhsIdx j k 1).val = (j 1).val := by
  unfold DotDims.rhsIdx
  rw [dif_neg (show ¬(1 : Fin S49x50.rank) ∈ dot_S10000x49_S49x50_S10000x50_1_0_0_1_n_n.rhsBatch by decide),
    dif_pos (show (1 : Fin S49x50.rank) ∈ dot_S10000x49_S49x50_S10000x50_1_0_0_1_n_n.rhsNonContracting by decide)]
  rfl

/-- The product of a 10000 x 49 block with the 49 x 50 path matrix, accumulated into zero, read at (p, q): the sum
    over the 49 limbs of the block's row p times the matrix's column q. -/
theorem matmul_zero_apply (A : FVec Ideal S10000x49 .f32) (B : FVec Ideal S49x50 .f32) (p : Fin 10000) (q : Fin 50) :
    matmul (F := Ideal) dot_S10000x49_S49x50_S10000x50_1_0_0_1_n_n none A B
        (constant (F := Ideal) S10000x50 .f32 0x00000000#32) (ix2 p q)
      = ∑ k : Fin 49, A (ix2 p k) * B (ix2 k q) := by
  refine (Ideal.matmul_constant_zero_apply dot_S10000x49_S49x50_S10000x50_1_0_0_1_n_n none A B (ix2 p q)).trans ?_
  rw [← Equiv.sum_comp (contrEquiv1 dot_S10000x49_S49x50_S10000x50_1_0_0_1_n_n 49 rfl rfl).symm]
  refine Finset.sum_congr rfl fun k _ => ?_
  have hl : dot_S10000x49_S49x50_S10000x50_1_0_0_1_n_n.lhsIdx (ix2 p q)
      ((contrEquiv1 dot_S10000x49_S49x50_S10000x50_1_0_0_1_n_n 49 rfl rfl).symm k) = ix2 p k := by
    funext a
    refine Fin.ext ?_
    match a with
    | ⟨0, _⟩ => exact lhs_dot_0 _ _
    | ⟨1, _⟩ => exact (lhs_dot_1 _ _).trans (contrEquiv1_symm_val _ 49 rfl rfl k)
  have hr : dot_S10000x49_S49x50_S10000x50_1_0_0_1_n_n.rhsIdx (ix2 p q)
      ((contrEquiv1 dot_S10000x49_S49x50_S10000x50_1_0_0_1_n_n 49 rfl rfl).symm k) = ix2 k q := by
    funext a
    refine Fin.ext ?_
    match a with
    | ⟨0, _⟩ => exact (rhs_dot_0 _ _).trans (contrEquiv1_symm_val _ 49 rfl rfl k)
    | ⟨1, _⟩ => exact rhs_dot_1 _ _
  rw [hl, hr]

/-! ## A column broadcast along the rows -/

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One grid point's block of a joint coordinate -/

/-- The block of steps in the coordinate u: the bone lengths' row broadcast down the rows, times u, over the
    directions' lengths plus the literal. At (p, k) it is limb k's step in frame p. -/
theorem step_apply (x2 x3 x4 u : FVec Ideal S10000x49 .f32) (x1 : FVec Ideal S1x49 .f32) (p : Fin 10000) (k : Fin 49) :
    divf (mulf (broadcastTo S10000x49 (k0_pay9 (F := Ideal) x1) broadcasts_S1x49_S10000x49) u) (k0_pay8 (F := Ideal) x2 x3 x4) (ix2 p k)
      = stepE (x1 (ix2 0 k)) (u (ix2 p k)) (x2 (ix2 p k)) (x3 (ix2 p k)) (x4 (ix2 p k)) := by
  rw [divf_apply, mulf_apply, broadcastTo_1b_ab_apply]
  unfold k0_pay9
  rw [shapeCast_self]
  rfl

/-- A joint coordinate's block at (p, q): the root's column entry of frame p plus the sum over the 49 limbs of the
    step times the path matrix's entry (k, q). -/
theorem pos_apply (r : FVec Ideal S10000x1 .f32) (x1 : FVec Ideal S1x49 .f32) (u x2 x3 x4 : FVec Ideal S10000x49 .f32)
    (x0 : FVec Ideal S49x50 .f32) (p : Fin 10000) (q : Fin 50) :
    addf (broadcastTo S10000x50 r broadcasts_S10000x1_S10000x50)
        (matmul (F := Ideal) dot_S10000x49_S49x50_S10000x50_1_0_0_1_n_n none
          (divf (mulf (broadcastTo S10000x49 (k0_pay9 (F := Ideal) x1) broadcasts_S1x49_S10000x49) u) (k0_pay8 (F := Ideal) x2 x3 x4)) x0
          (constant (F := Ideal) S10000x50 .f32 0x00000000#32)) (ix2 p q)
      = posE (r (ix2 p 0)) (fun k => x1 (ix2 0 k)) (fun k => u (ix2 p k)) (fun k => x2 (ix2 p k)) (fun k => x3 (ix2 p k))
          (fun k => x4 (ix2 p k)) (fun k => x0 (ix2 k q)) := by
  rw [addf_apply, broadcastTo_a1_ab_apply, matmul_zero_apply]
  unfold posE
  refine congrArg (r (ix2 p 0) + ·) (Finset.sum_congr rfl fun k _ => ?_)
  rw [step_apply]

theorem pay10_apply (x2 x3 x4 : Vec Ideal S10000x49 .f32) (x1 : Vec Ideal S1x49 .f32) (x0 : Vec Ideal S49x50 .f32)
    (x5 : Vec Ideal S10000x1 .f32) (p : Fin 10000) (q : Fin 50) :
    k0_pay10 (F := Ideal) x2 x3 x4 x1 x0 x5 (ix2 p q)
      = posE (x5 (ix2 p 0)) (fun k => x1 (ix2 0 k)) (fun k => x2 (ix2 p k)) (fun k => x2 (ix2 p k)) (fun k => x3 (ix2 p k))
          (fun k => x4 (ix2 p k)) (fun k => x0 (ix2 k q)) :=
  pos_apply x5 x1 x2 x2 x3 x4 x0 p q

theorem pay11_apply (x2 x3 x4 : Vec Ideal S10000x49 .f32) (x1 : Vec Ideal S1x49 .f32) (x0 : Vec Ideal S49x50 .f32)
    (x6 : Vec Ideal S10000x1 .f32) (p : Fin 10000) (q : Fin 50) :
    k0_pay11 (F := Ideal) x2 x3 x4 x1 x0 x6 (ix2 p q)
      = posE (x6 (ix2 p 0)) (fun k => x1 (ix2 0 k)) (fun k => x3 (ix2 p k)) (fun k => x2 (ix2 p k)) (fun k => x3 (ix2 p k))
          (fun k => x4 (ix2 p k)) (fun k => x0 (ix2 k q)) :=
  pos_apply x6 x1 x3 x2 x3 x4 x0 p q

theorem pay13_apply (x2 x3 x4 : Vec Ideal S10000x49 .f32) (x1 : Vec Ideal S1x49 .f32) (x0 : Vec Ideal S49x50 .f32)
    (x7 : Vec Ideal S10000x1 .f32) (p : Fin 10000) (q : Fin 50) :
    k0_pay13 (F := Ideal) x7 (k0_pay12 (F := Ideal) x2 x3 x4 x1 x0) (ix2 p q)
      = posE (x7 (ix2 p 0)) (fun k => x1 (ix2 0 k)) (fun k => x4 (ix2 p k)) (fun k => x2 (ix2 p k)) (fun k => x3 (ix2 p k))
          (fun k => x4 (ix2 p k)) (fun k => x0 (ix2 k q)) :=
  pos_apply x7 x1 x4 x2 x3 x4 x0 p q

/-! ## A block's last row -/

/-- The row cut from a 10000 x 50 block at offset 9999 reads, at (0, q), the block's row 9999. -/
theorem lastRow_apply (v : FVec Ideal S10000x50 .f32) (q : Fin 50) :
    shapeCast S1x50 (extractStridedSlice S1x50 ![9999, 0] v slices_S10000x50_o9999_0_S1x50) shapeCasts_S1x50_S1x50 (ix2 0 q)
      = v (ix2 9999 q) := by
  rw [shapeCast_self]
  exact slice2_axis0_apply 9999 v slices_S10000x50_o9999_0_S1x50 0 q 9999 rfl

theorem pay3_apply (v : FVec Ideal S10000x50 .f32) (q : Fin 50) : k0_pay3 (F := Ideal) v (ix2 0 q) = v (ix2 9999 q) :=
  lastRow_apply v q

theorem pay4_apply (v : FVec Ideal S10000x50 .f32) (q : Fin 50) : k0_pay4 (F := Ideal) v (ix2 0 q) = v (ix2 9999 q) :=
  lastRow_apply v q

theorem pay5_apply (v : FVec Ideal S10000x50 .f32) (q : Fin 50) : k0_pay5 (F := Ideal) v (ix2 0 q) = v (ix2 9999 q) :=
  lastRow_apply v q

/-! ## The accumulators' first value -/

/-- The zero word broadcast to the one-entry array is the extended real zero. -/
theorem zeroSplat_eq :
    shapeCast S1x1 (broadcast S1x1 (Scalar.ofBits (F := Ideal) .f32 0x00000000#32)) shapeCasts_S1x1_S1x1 = fun _ => (0 : EReal) := by
  rw [shapeCast_self]
  funext j
  exact Ideal.ofBits_zero_f32

theorem pay6_eq : k0_pay6 (F := Ideal) = fun _ => 0 := zeroSplat_eq

theorem pay7_eq : k0_pay7 (F := Ideal) = fun _ => 0 := zeroSplat_eq

/-! ## An accumulator plus the sum of all entries of an array -/

/-- The one-entry array has one index. -/
theorem idx11_eq (j : S1x1.Idx) : j = ix2 0 0 := by
  funext a
  refine Fin.ext ?_
  match a with
  | ⟨0, _⟩ => have h0 : (j 0).val < 1 := (j 0).isLt; show (j 0).val = 0; omega
  | ⟨1, _⟩ => have h1 : (j 1).val < 1 := (j 1).isLt; show (j 1).val = 0; omega

/-- An [n, c] array cast to [1, n, c], reduced by addition over its last two axes into the one-entry vector, read
    back as a scalar, broadcast to [1, 1] and added to the accumulator: the accumulator's entry plus the sum of all
    the array's entries. -/
theorem accTotal_apply {n c : ℕ} (v : FVec Ideal ⟨2, ![n, c]⟩ .f32) (acc : Vec Ideal S1x1 .f32)
    (hc : (⟨2, ![n, c]⟩ : Shape).ShapeCasts ⟨3, ![1, n, c]⟩) (hr : (⟨3, ![1, n, c]⟩ : Shape).Reduces [1, 2] S1) :
    shapeCast S1x1 (addf acc (broadcast S1x1 (extractAt ![0, 0, 0]
        (shapeCast S1x1x1 (multiReduction (F := Ideal) .add [1, 2] S1 (shapeCast ⟨3, ![1, n, c]⟩ v hc) 0x00000000#32 hr (.inl rfl) rfl)
          shapeCasts_S1_S1x1x1) inpos_S1x1x1_p0_0_0))) shapeCasts_S1x1_S1x1
      = fun _ => acc (ix2 0 0) + ∑ y : (⟨2, ![n, c]⟩ : Shape).Idx, v y := by
  rw [shapeCast_self]
  funext j
  rw [addf_apply, broadcast_apply, idx11_eq j]
  refine congrArg (acc (ix2 0 0) + ·) ?_
  have hx : extractAt ![0, 0, 0]
      (shapeCast S1x1x1 (multiReduction (F := Ideal) .add [1, 2] S1 (shapeCast ⟨3, ![1, n, c]⟩ v hc) 0x00000000#32 hr (.inl rfl) rfl)
        shapeCasts_S1_S1x1x1) inpos_S1x1x1_p0_0_0
      = multiReduction (F := Ideal) .add [1, 2] S1 (shapeCast ⟨3, ![1, n, c]⟩ v hc) 0x00000000#32 hr (.inl rfl) rfl (ix1 0) := by
    unfold extractAt
    refine shapeCast_apply _ shapeCasts_S1_S1x1x1 _ (ix1 0) ?_
    rw [Shape.rowMajor_val_one, Shape.rowMajor_val_three]
    rfl
  rw [hx]
  refine (Ideal.multiReduction_add_total (shapeCast ⟨3, ![1, n, c]⟩ v hc) 0x00000000#32 hr (fun b => ?_) (.inl rfl) rfl (ix1 0)).trans ?_
  · match b with
    | ⟨0, _⟩ => rfl
  · rw [Cert.Sums.sum_unit_axis]
    refine Finset.sum_congr rfl fun y _ => ?_
    exact (shapeCast_ab_1ab_apply v hc 0 (y 0) (y 1)).trans (congrArg v (eq_ix2 y).symm)

theorem pay14_eq (bx bY w tx ty : FVec Ideal S10000x50 .f32) (acc : Vec Ideal S1x1 .f32) :
    k0_pay14 (F := Ideal) bx bY w tx ty acc
      = fun _ => acc (ix2 0 0) + ∑ y : S10000x50.Idx, lossE (bx y) (bY y) (tx y) (ty y) (w y) :=
  accTotal_apply (addf (mulf w (mulf (subf bx tx) (subf bx tx))) (mulf w (mulf (subf bY ty) (subf bY ty)))) acc
    shapeCasts_S10000x50_S1x10000x50 reduces_S1x10000x50_S1

theorem pay2_eq (v : FVec Ideal S9999x50 .f32) (acc : Vec Ideal S1x1 .f32) :
    k0_pay2 (F := Ideal) v acc = fun _ => acc (ix2 0 0) + ∑ y : S9999x50.Idx, v y :=
  accTotal_apply v acc shapeCasts_S9999x50_S1x9999x50 reduces_S1x9999x50_S1

/-! ## Squared displacements -/

/-- The rows 0 .. 9998 of a block: row p. -/
theorem rowsLo_apply (v : FVec Ideal S10000x50 .f32) (p : Fin 9999) (q : Fin 50) :
    extractStridedSlice S9999x50 ![0, 0] v slices_S10000x50_o0_0_S9999x50 (ix2 p q)
      = v (ix2 ⟨p.val, Nat.lt_of_lt_of_le p.isLt (by decide)⟩ q) :=
  slice2_axis0_apply 0 v slices_S10000x50_o0_0_S9999x50 p q _ (Nat.zero_add _).symm

/-- The rows 1 .. 9999 of a block: row p + 1. -/
theorem rowsHi_apply (v : FVec Ideal S10000x50 .f32) (p : Fin 9999) (q : Fin 50) :
    extractStridedSlice S9999x50 ![1, 0] v slices_S10000x50_o1_0_S9999x50 (ix2 p q)
      = v (ix2 ⟨p.val + 1, Nat.succ_lt_succ p.isLt⟩ q) :=
  slice2_axis0_apply 1 v slices_S10000x50_o1_0_S9999x50 p q _ (Nat.add_comm _ _)

theorem pay15_apply (bx bY : FVec Ideal S10000x50 .f32) (x7 : Vec Ideal S10000x1 .f32) (pz : FVec Ideal S10000x50 .f32)
    (p : Fin 9999) (q : Fin 50) :
    k0_pay15 (F := Ideal) bx bY x7 pz (ix2 p q)
      = regE (bx (ix2 ⟨p.val, Nat.lt_of_lt_of_le p.isLt (by decide)⟩ q)) (bx (ix2 ⟨p.val + 1, Nat.succ_lt_succ p.isLt⟩ q))
          (bY (ix2 ⟨p.val, Nat.lt_of_lt_of_le p.isLt (by decide)⟩ q)) (bY (ix2 ⟨p.val + 1, Nat.succ_lt_succ p.isLt⟩ q))
          (k0_pay13 (F := Ideal) x7 pz (ix2 ⟨p.val, Nat.lt_of_lt_of_le p.isLt (by decide)⟩ q))
          (k0_pay13 (F := Ideal) x7 pz (ix2 ⟨p.val + 1, Nat.succ_lt_succ p.isLt⟩ q)) := by
  unfold k0_pay15 regE
  simp only [addf_apply, mulf_apply, subf_apply, rowsLo_apply, rowsHi_apply]

/-! ## The boundary row between two consecutive blocks -/

/-- The first row of a block: at (0, q), row 0. -/
theorem firstRow_apply (v : FVec Ideal S10000x50 .f32) (y : S1x50.Idx) :
    extractStridedSlice S1x50 ![0, 0] v slices_S10000x50_o0_0_S1x50 y = v (ix2 0 (y 1)) := by
  refine extractStridedSlice_apply _ v slices_S10000x50_o0_0_S1x50 y (ix2 0 (y 1)) fun a => ?_
  match a with
  | ⟨0, _⟩ => have h0 : (y 0).val < 1 := (y 0).isLt; show 0 = 0 + (y 0).val; omega
  | ⟨1, _⟩ => exact (Nat.zero_add _).symm

theorem pay1_eq (bx bY bz : FVec Ideal S10000x50 .f32) (xs0 xs1 xs2 : Vec Ideal S1x50 .f32) (acc : Vec Ideal S1x1 .f32) :
    k0_pay1 (F := Ideal) bx bY bz xs0 xs1 xs2 acc
      = fun _ => acc (ix2 0 0) + ∑ y : S1x50.Idx,
          regE (xs0 y) (bx (ix2 0 (y 1))) (xs1 y) (bY (ix2 0 (y 1))) (xs2 y) (bz (ix2 0 (y 1))) := by
  refine (accTotal_apply (n := 1) (c := 50) _ acc shapeCasts_S1x50_S1x1x50 reduces_S1x1x50_S1).trans ?_
  funext _
  refine congrArg (acc (ix2 0 0) + ·) (Finset.sum_congr rfl fun y _ => ?_)
  unfold regE
  simp only [addf_apply, mulf_apply, subf_apply, firstRow_apply]

end Cert.KernelIdeal.Pay

end
-- ==== Proof.KRead.lean ====
/-
  What the kernel program's eleven input windows hold at every grid point, read at coordinates of the
  ARGUMENT arrays.

  The grid has 20 points; point t takes rows 10000 t .. 10000 t + 9999 of the nine frame-indexed arguments
  (three direction arrays of 49 limbs, three root columns, two target arrays and the weights of 50 joints),
  and at every point the whole path matrix (49 x 50) and the whole row of bone lengths (1 x 49). The path matrix
  is a printed constant; the bone-length row is computed before the grid starts: exp of the 20 log-lengths,
  picked per limb by the fixed index table, reshaped from [49] to [1, 49].
-/
import proofs.«158102_j3590592659458_1_alg».proof.Proof.Gen.KernelIdeal.Frame.Runs
import Idealize.ShloMosaic.Lib.Pipeline.Value
import Idealize.ShloMosaic.Lib.ValueIdx
import Idealize.ShloMosaic.Lib.StableHlo.Run

noncomputable section

namespace Cert.KernelIdeal.Read

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The frame a block row stands for -/

/-- frame 10000 t + p: row p of the block of grid point t -/
def row (t : Fin cfg0.N) (p : Fin 10000) : Fin 200000 :=
  ⟨10000 * t.val + p.val, by have h : t.val < 20 := Nat.lt_of_lt_of_eq t.isLt N_0; omega⟩

theorem row_val (t : Fin cfg0.N) (p : Fin 10000) : (row t p).val = 10000 * t.val + p.val := rfl

/-! ## The index maps, decided once over the grid -/

/-- The path matrix's window sits at block (0, 0) at every point. -/
theorem idx0 : ∀ t : Fin cfg0.N, win0_0.index t (0 : Fin 2) = 0 ∧ win0_0.index t (1 : Fin 2) = 0 :=
  (by decide +kernel : ∀ t : Fin grid0.N, _)
/-- So does the bone-length row's. -/
theorem idx1 : ∀ t : Fin cfg0.N, win0_1.index t (0 : Fin 2) = 0 ∧ win0_1.index t (1 : Fin 2) = 0 :=
  (by decide +kernel : ∀ t : Fin grid0.N, _)
/-- The x directions' window is at block (t, 0) at point t. -/
theorem idx2 : ∀ t : Fin cfg0.N, win0_2.index t (0 : Fin 2) = t.val ∧ win0_2.index t (1 : Fin 2) = 0 :=
  (by decide +kernel : ∀ t : Fin grid0.N, _)
/-- The y directions' window likewise. -/
theorem idx3 : ∀ t : Fin cfg0.N, win0_3.index t (0 : Fin 2) = t.val ∧ win0_3.index t (1 : Fin 2) = 0 :=
  (by decide +kernel : ∀ t : Fin grid0.N, _)
/-- The z directions' window likewise. -/
theorem idx4 : ∀ t : Fin cfg0.N, win0_4.index t (0 : Fin 2) = t.val ∧ win0_4.index t (1 : Fin 2) = 0 :=
  (by decide +kernel : ∀ t : Fin grid0.N, _)
/-- The x roots' window likewise. -/
theorem idx5 : ∀ t : Fin cfg0.N, win0_5.index t (0 : Fin 2) = t.val ∧ win0_5.index t (1 : Fin 2) = 0 :=
  (by decide +kernel : ∀ t : Fin grid0.N, _)
/-- The y roots' window likewise. -/
theorem idx6 : ∀ t : Fin cfg0.N, win0_6.index t (0 : Fin 2) = t.val ∧ win0_6.index t (1 : Fin 2) = 0 :=
  (by decide +kernel : ∀ t : Fin grid0.N, _)
/-- The z roots' window likewise. -/
theorem idx7 : ∀ t : Fin cfg0.N, win0_7.index t (0 : Fin 2) = t.val ∧ win0_7.index t (1 : Fin 2) = 0 :=
  (by decide +kernel : ∀ t : Fin grid0.N, _)
/-- The x targets' window likewise. -/
theorem idx8 : ∀ t : Fin cfg0.N, win0_8.index t (0 : Fin 2) = t.val ∧ win0_8.index t (1 : Fin 2) = 0 :=
  (by decide +kernel : ∀ t : Fin grid0.N, _)
/-- The y targets' window likewise. -/
theorem idx9 : ∀ t : Fin cfg0.N, win0_9.index t (0 : Fin 2) = t.val ∧ win0_9.index t (1 : Fin 2) = 0 :=
  (by decide +kernel : ∀ t : Fin grid0.N, _)
/-- The weights' window likewise. -/
theorem idx10 : ∀ t : Fin cfg0.N, win0_10.index t (0 : Fin 2) = t.val ∧ win0_10.index t (1 : Fin 2) = 0 :=
  (by decide +kernel : ∀ t : Fin grid0.N, _)

/-! ## The frame-indexed windows: row p of point t's block is frame 10000 t + p of the argument -/

/-- Directions, x: row p of point t's block is frame 10000 t + p, limb k. -/
theorem iblk2_apply (c : Dev nD) (t : Fin cfg0.N) (p : Fin 10000) (k : Fin 49) :
    (iblk m c 2 t : Vec F S10000x49 .f32) (ix2 p k) = (m ((c : Thread nD τ).loc main_arg4)) (ix2 (row t p) k) := by
  unfold iblk
  rw [View.read_apply]
  show V m c main_arg4 _ = m (c.tc.loc main_arg4) _
  rw [V_main_arg4]
  congr 1
  funext a
  apply Fin.ext
  match a with
  | ⟨0, _⟩ => show win0_2.index t 0 * 10000 + 1 * p.val = 10000 * t.val + p.val; rw [(idx2 t).1]; omega
  | ⟨1, _⟩ => show win0_2.index t 1 * 49 + 1 * k.val = k.val; rw [(idx2 t).2]; omega

/-- Directions, y: the same rows of the y array. -/
theorem iblk3_apply (c : Dev nD) (t : Fin cfg0.N) (p : Fin 10000) (k : Fin 49) :
    (iblk m c 3 t : Vec F S10000x49 .f32) (ix2 p k) = (m ((c : Thread nD τ).loc main_arg5)) (ix2 (row t p) k) := by
  unfold iblk
  rw [View.read_apply]
  show V m c main_arg5 _ = m (c.tc.loc main_arg5) _
  rw [V_main_arg5]
  congr 1
  funext a
  apply Fin.ext
  match a with
  | ⟨0, _⟩ => show win0_3.index t 0 * 10000 + 1 * p.val = 10000 * t.val + p.val; rw [(idx3 t).1]; omega
  | ⟨1, _⟩ => show win0_3.index t 1 * 49 + 1 * k.val = k.val; rw [(idx3 t).2]; omega

/-- Directions, z: the same rows of the z array. -/
theorem iblk4_apply (c : Dev nD) (t : Fin cfg0.N) (p : Fin 10000) (k : Fin 49) :
    (iblk m c 4 t : Vec F S10000x49 .f32) (ix2 p k) = (m ((c : Thread nD τ).loc main_arg6)) (ix2 (row t p) k) := by
  unfold iblk
  rw [View.read_apply]
  show V m c main_arg6 _ = m (c.tc.loc main_arg6) _
  rw [V_main_arg6]
  congr 1
  funext a
  apply Fin.ext
  match a with
  | ⟨0, _⟩ => show win0_4.index t 0 * 10000 + 1 * p.val = 10000 * t.val + p.val; rw [(idx4 t).1]; omega
  | ⟨1, _⟩ => show win0_4.index t 1 * 49 + 1 * k.val = k.val; rw [(idx4 t).2]; omega

/-- Roots, x: row p of point t's block is frame 10000 t + p of the one-column array. -/
theorem iblk5_apply (c : Dev nD) (t : Fin cfg0.N) (p : Fin 10000) :
    (iblk m c 5 t : Vec F S10000x1 .f32) (ix2 p 0) = (m ((c : Thread nD τ).loc main_arg1)) (ix2 (row t p) 0) := by
  unfold iblk
  rw [View.read_apply]
  show V m c main_arg1 _ = m (c.tc.loc main_arg1) _
  rw [V_main_arg1]
  congr 1
  funext a
  apply Fin.ext
  match a with
  | ⟨0, _⟩ => show win0_5.index t 0 * 10000 + 1 * p.val = 10000 * t.val + p.val; rw [(idx5 t).1]; omega
  | ⟨1, _⟩ => show win0_5.index t 1 * 1 + 1 * (0 : Fin 1).val = (0 : Fin 1).val; rw [(idx5 t).2]; omega

/-- Roots, y: the same rows of the y column. -/
theorem iblk6_apply (c : Dev nD) (t : Fin cfg0.N) (p : Fin 10000) :
    (iblk m c 6 t : Vec F S10000x1 .f32) (ix2 p 0) = (m ((c : Thread nD τ).loc main_arg2)) (ix2 (row t p) 0) := by
  unfold iblk
  rw [View.read_apply]
  show V m c main_arg2 _ = m (c.tc.loc main_arg2) _
  rw [V_main_arg2]
  congr 1
  funext a
  apply Fin.ext
  match a with
  | ⟨0, _⟩ => show win0_6.index t 0 * 10000 + 1 * p.val = 10000 * t.val + p.val; rw [(idx6 t).1]; omega
  | ⟨1, _⟩ => show win0_6.index t 1 * 1 + 1 * (0 : Fin 1).val = (0 : Fin 1).val; rw [(idx6 t).2]; omega

/-- Roots, z: the same rows of the z column. -/
theorem iblk7_apply (c : Dev nD) (t : Fin cfg0.N) (p : Fin 10000) :
    (iblk m c 7 t : Vec F S10000x1 .f32) (ix2 p 0) = (m ((c : Thread nD τ).loc main_arg3)) (ix2 (row t p) 0) := by
  unfold iblk
  rw [View.read_apply]
  show V m c main_arg3 _ = m (c.tc.loc main_arg3) _
  rw [V_main_arg3]
  congr 1
  funext a
  apply Fin.ext
  match a with
  | ⟨0, _⟩ => show win0_7.index t 0 * 10000 + 1 * p.val = 10000 * t.val + p.val; rw [(idx7 t).1]; omega
  | ⟨1, _⟩ => show win0_7.index t 1 * 1 + 1 * (0 : Fin 1).val = (0 : Fin 1).val; rw [(idx7 t).2]; omega

/-- Targets, x: row p of point t's block is frame 10000 t + p, joint q. -/
theorem iblk8_apply (c : Dev nD) (t : Fin cfg0.N) (p : Fin 10000) (q : Fin 50) :
    (iblk m c 8 t : Vec F S10000x50 .f32) (ix2 p q) = (m ((c : Thread nD τ).loc main_arg7)) (ix2 (row t p) q) := by
  unfold iblk
  rw [View.read_apply]
  show V m c main_arg7 _ = m (c.tc.loc main_arg7) _
  rw [V_main_arg7]
  congr 1
  funext a
  apply Fin.ext
  match a with
  | ⟨0, _⟩ => show win0_8.index t 0 * 10000 + 1 * p.val = 10000 * t.val + p.val; rw [(idx8 t).1]; omega
  | ⟨1, _⟩ => show win0_8.index t 1 * 50 + 1 * q.val = q.val; rw [(idx8 t).2]; omega

/-- Targets, y: the same rows of the y targets. -/
theorem iblk9_apply (c : Dev nD) (t : Fin cfg0.N) (p : Fin 10000) (q : Fin 50) :
    (iblk m c 9 t : Vec F S10000x50 .f32) (ix2 p q) = (m ((c : Thread nD τ).loc main_arg8)) (ix2 (row t p) q) := by
  unfold iblk
  rw [View.read_apply]
  show V m c main_arg8 _ = m (c.tc.loc main_arg8) _
  rw [V_main_arg8]
  congr 1
  funext a
  apply Fin.ext
  match a with
  | ⟨0, _⟩ => show win0_9.index t 0 * 10000 + 1 * p.val = 10000 * t.val + p.val; rw [(idx9 t).1]; omega
  | ⟨1, _⟩ => show win0_9.index t 1 * 50 + 1 * q.val = q.val; rw [(idx9 t).2]; omega

/-- Weights: the same rows of the weight array. -/
theorem iblk10_apply (c : Dev nD) (t : Fin cfg0.N) (p : Fin 10000) (q : Fin 50) :
    (iblk m c 10 t : Vec F S10000x50 .f32) (ix2 p q) = (m ((c : Thread nD τ).loc main_arg9)) (ix2 (row t p) q) := by
  unfold iblk
  rw [View.read_apply]
  show V m c main_arg9 _ = m (c.tc.loc main_arg9) _
  rw [V_main_arg9]
  congr 1
  funext a
  apply Fin.ext
  match a with
  | ⟨0, _⟩ => show win0_10.index t 0 * 10000 + 1 * p.val = 10000 * t.val + p.val; rw [(idx10 t).1]; omega
  | ⟨1, _⟩ => show win0_10.index t 1 * 50 + 1 * q.val = q.val; rw [(idx10 t).2]; omega

/-! ## The two fixed windows: the path matrix and the bone lengths -/

/-- The limb-to-bone index table: the printed constant. -/
def boneTable : (⟨S49, .i32⟩ : BufTy).Contents (Elt F) := fun i => lit0 (S49.rowMajor i)

/-- The table as the gather's column of start indices: an entry below zero is first raised by the bone count, 20. -/
def boneIdx : (⟨S49x1, .i32⟩ : BufTy).Contents (Elt F) :=
  broadcastInDim S49x1 ![0] bcast_S49_S49x1_0
    (select (cmpi .slt (boneTable (F := F)) (broadcastInDim S49 ![] bcast_S_S49 (constantI S_ 32 0#32)))
      (addi (boneTable (F := F)) (broadcastInDim S49 ![] bcast_S_S49 (constantI S_ 32 20#32))) (boneTable (F := F)))

/-- The path matrix: entry (k, j) is 1 when limb k lies on the path from the root to joint j. -/
def pathT : (⟨S49x50, .f32⟩ : BufTy).Contents (Elt F) := fun i => FloatOps.ofBits .f32 (lit1 (S49x50.rowMajor i))

/-- The bone length of every limb: exp of the log-lengths, picked per limb by the index table. -/
def limbs (a0 : (⟨S20, .f32⟩ : BufTy).Contents (Elt F)) : (⟨S49, .f32⟩ : BufTy).Contents (Elt F) :=
  Host.gather gather_S20_S49x1_S49_n_0_n_n_0_1_1 (Host.exp a0) (boneIdx (F := F))

/-- When the grid starts, the path matrix's array holds the printed constant. -/
theorem V_cst (c : Dev nD) : (V m c main_cst : S49x50.Idx → Elt F .f32) = pathT (F := F) := by
  show StableHlo.after hostOps0 (fun b => m (c, b)) (Proc.devRef .tc main_cst) = _
  after_results
  rfl

/-- When the grid starts, the bone-length row's array holds the limbs' lengths, recast from [49] to [1, 49]. -/
theorem V_v8 (c : Dev nD) : (V m c main_v8 : S1x49.Idx → Elt F .f32)
    = shapeCast S1x49 (limbs (m ((c : Thread nD τ).loc main_arg0))) shapeCasts_S49_S1x49 := by
  show StableHlo.after hostOps0 (fun b => m (c, b)) (Proc.devRef .tc main_v8) = _
  after_results
  rfl

/-- The path matrix's block is the whole matrix, at every point. -/
theorem iblk0_apply (c : Dev nD) (t : Fin cfg0.N) (k : Fin 49) (q : Fin 50) :
    (iblk m c 0 t : Vec F S49x50 .f32) (ix2 k q) = pathT (F := F) (ix2 k q) := by
  unfold iblk
  rw [View.read_apply]
  show (V m c main_cst : S49x50.Idx → Elt F .f32) _ = _
  rw [V_cst]
  congr 1
  funext a
  apply Fin.ext
  match a with
  | ⟨0, _⟩ => show win0_0.index t 0 * 49 + 1 * k.val = k.val; rw [(idx0 t).1]; omega
  | ⟨1, _⟩ => show win0_0.index t 1 * 50 + 1 * q.val = q.val; rw [(idx0 t).2]; omega

/-- The bone-length row's block is the whole row, at every point: entry (0, k) is limb k's length. -/
theorem iblk1_apply (c : Dev nD) (t : Fin cfg0.N) (k : Fin 49) :
    (iblk m c 1 t : Vec F S1x49 .f32) (ix2 0 k) = limbs (m ((c : Thread nD τ).loc main_arg0)) (ix1 k) := by
  unfold iblk
  rw [View.read_apply]
  show (V m c main_v8 : S1x49.Idx → Elt F .f32) _ = _
  rw [V_v8]
  refine shapeCast_apply _ _ _ (ix1 k) ?_
  rw [Shape.rowMajor_val_one, Shape.rowMajor_val_two]
  show k.val = (win0_1.index t 0 * 1 + 1 * (0 : Fin 1).val) * 49 + (win0_1.index t 1 * 49 + 1 * k.val)
  rw [(idx1 t).1, (idx1 t).2]
  omega

end Cert.KernelIdeal.Read

end
-- ==== Proof.KPieces.lean ====
/-
  What each control case of the kernel's body leaves in its outputs and in the scratch it carries from one grid point to
  the next, as VALUES: pure terms over the input blocks (and, from the second point on, over what the point before left
  in the scratch), for any float instance.

  The kernel walks 20 blocks of 10000 frames. At every point it computes the block's three coordinate arrays (`bX`, `bY`,
  `bZ`: a root coordinate plus scaled unit directions carried down the skeleton by a 0/1 path matrix), stores them to
  the three coordinate outputs, adds the block's weighted squared error to a loss accumulator, adds the block's squared
  frame-to-frame differences to a smoothness accumulator, and keeps the block's last frame in three carried rows so that
  the next point can add the one difference that crosses the block boundary. Three control cases:
    A  the first point: both accumulators are zeroed first, and there is no boundary difference;
    B  the points 1 to 18: the boundary difference is added, then the inner differences;
    C  the last point: as B, and the two accumulators are then read back into the two scalar outputs.

  The generated frame names what a case leaves in a buffer as the read-back of the pieces its run found, over arbitrary
  prior contents. Each lemma below replaces that by the value: the pieces cover the buffer, so the read-back is their
  canonical merge; every store here goes through the buffer's whole rectangle at zero offsets, so the merge is the LAST
  store's payload; a load through that rectangle of an input's whole buffer is the input block, and a load of a scratch
  after a store in the same run is that store's payload. Where a buffer is stored twice (an accumulator zeroed and then
  updated; the smoothness accumulator updated by the boundary term and then by the inner terms) the second store's
  accumulator argument is therefore the first store's payload.
-/
import proofs.«158102_j3590592659458_1_alg».proof.Proof.KFrameDefs
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces

open Cert.KernelIdeal Cert.KernelIdeal.Gen Cert.KernelIdeal.GenP

variable {F : FTy → Type} [FloatOps F]

/-- The zero offsets of a rank-2 rectangle, in the two spellings met: the literal pair and the constant function. -/
theorem hz : (![0, 0] : Fin 2 → Nat) = fun _ => 0 := funext fun a => by fin_cases a <;> rfl

/-- A load through the whole-shape rectangle at zero offsets, after SEVERAL stores of which the last went through that
    same rectangle, reads the last store's payload: the last store covers every index, so the earlier ones are hidden. -/
theorem readCov_cons_unit_zero {Val : EltTy → Type} {S : Shape} {e : EltTy} [∀ e, Nonempty (Val e)]
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ (Rect.unit off S.size inb)
      (fun y => ⟨_, List.mem_cons.mpr (Or.inl rfl), View.mem_set_unit_zero h inb y⟩),
    View.canon_cons_unit_zero h, View.ld_unit_zero h]

/-- The x coordinates of a block of 10000 frames: the root's x broadcast along the 50 points, plus the scaled unit
    directions' x components (bone length times direction over its norm) carried down the skeleton by the path matrix. -/
abbrev bX (x0 : Vec F S49x50 .f32) (x1 : Vec F S1x49 .f32) (x2 x3 x4 : Vec F S10000x49 .f32) (x5 : Vec F S10000x1 .f32) :
    FVec F S10000x50 .f32 := k0_pay10 x2 x3 x4 x1 x0 x5

/-- The y coordinates of the block, likewise from the root's y. -/
abbrev bY (x0 : Vec F S49x50 .f32) (x1 : Vec F S1x49 .f32) (x2 x3 x4 : Vec F S10000x49 .f32) (x6 : Vec F S10000x1 .f32) :
    FVec F S10000x50 .f32 := k0_pay11 x2 x3 x4 x1 x0 x6

/-- The z coordinates of the block: the root's z broadcast, plus the z product with the path matrix. -/
abbrev bZ (x0 : Vec F S49x50 .f32) (x1 : Vec F S1x49 .f32) (x2 x3 x4 : Vec F S10000x49 .f32) (x7 : Vec F S10000x1 .f32) :
    FVec F S10000x50 .f32 := k0_pay13 x7 (k0_pay12 x2 x3 x4 x1 x0)

/-- The loss accumulator after a block: `acc` plus the block's weighted squared distance (in x and y) to the targets. -/
abbrev lossUpd (x0 : Vec F S49x50 .f32) (x1 : Vec F S1x49 .f32) (x2 x3 x4 : Vec F S10000x49 .f32)
    (x5 x6 x7 : Vec F S10000x1 .f32) (x8 x9 x10 : Vec F S10000x50 .f32) (acc : Vec F S1x1 .f32) : FVec F S1x1 .f32 :=
  k0_pay14 (bX x0 x1 x2 x3 x4 x5) (bY x0 x1 x2 x3 x4 x6) x10 x8 x9 acc

/-- The squared differences of consecutive frames INSIDE a block (9999 of them), summed over the three coordinates. -/
abbrev regBlock (x0 : Vec F S49x50 .f32) (x1 : Vec F S1x49 .f32) (x2 x3 x4 : Vec F S10000x49 .f32)
    (x5 x6 x7 : Vec F S10000x1 .f32) : FVec F S9999x50 .f32 :=
  k0_pay15 (bX x0 x1 x2 x3 x4 x5) (bY x0 x1 x2 x3 x4 x6) x7 (k0_pay12 x2 x3 x4 x1 x0)

/-- The smoothness accumulator after the one difference ACROSS a block boundary: `acc` plus the squared distance of the
    carried last frame of the block before (`xs0 xs1 xs2`) to this block's first frame. -/
abbrev regEdge (x0 : Vec F S49x50 .f32) (x1 : Vec F S1x49 .f32) (x2 x3 x4 : Vec F S10000x49 .f32)
    (x5 x6 x7 : Vec F S10000x1 .f32) (xs0 xs1 xs2 : Vec F S1x50 .f32) (acc : Vec F S1x1 .f32) : FVec F S1x1 .f32 :=
  k0_pay1 (bX x0 x1 x2 x3 x4 x5) (bY x0 x1 x2 x3 x4 x6) (bZ x0 x1 x2 x3 x4 x7) xs0 xs1 xs2 acc

/-! ## Case A: the first grid point (the accumulators are zeroed, no boundary difference) -/

/-- At the first point, the x output's buffer holds the block's x coordinates: one covering store. -/
theorem out_A_11 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 = bX x0 x1 x2 x3 x4 x5 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the first point, the y output's buffer holds the block's y coordinates. -/
theorem out_A_12 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 = bY x0 x1 x2 x3 x4 x6 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the first point, the z output's buffer holds the block's z coordinates. -/
theorem out_A_13 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 = bZ x0 x1 x2 x3 x4 x7 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the first point, the carried x row is the block's last frame (row 9999 of its x coordinates). -/
theorem sout_A_0 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 = k0_pay3 (bX x0 x1 x2 x3 x4 x5) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the first point, the carried y row is the block's last frame. -/
theorem sout_A_1 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 = k0_pay4 (bY x0 x1 x2 x3 x4 x6) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the first point, the carried z row is the block's last frame. -/
theorem sout_A_2 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 = k0_pay5 (bZ x0 x1 x2 x3 x4 x7) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the first point the loss accumulator is zeroed, read back, and updated: the later store covers, and its
    accumulator argument is the zero just stored. -/
theorem sout_A_3 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 = lossUpd x0 x1 x2 x3 x4 x5 x6 x7 x8 x9 x10 k0_pay6 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the first point the smoothness accumulator is zeroed, read back, and the block's inner differences added (there is
    no boundary difference before the first block). -/
theorem sout_A_4 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : cond0_0 i) (hc1 : ¬cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 = k0_pay2 (regBlock x0 x1 x2 x3 x4 x5 x6 x7) k0_pay7 := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-! ## Case B: the inner grid points 1 to 18 -/

/-- At an inner point (1 to 18), the x output's buffer holds the block's x coordinates: one covering store. -/
theorem out_B_11 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = bX x0 x1 x2 x3 x4 x5 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At an inner point (1 to 18), the y output's buffer holds the block's y coordinates. -/
theorem out_B_12 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = bY x0 x1 x2 x3 x4 x6 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At an inner point (1 to 18), the z output's buffer holds the block's z coordinates. -/
theorem out_B_13 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = bZ x0 x1 x2 x3 x4 x7 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At an inner point (1 to 18), the carried x row is the block's last frame (row 9999 of its x coordinates). -/
theorem sout_B_0 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = k0_pay3 (bX x0 x1 x2 x3 x4 x5) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At an inner point (1 to 18), the carried y row is the block's last frame. -/
theorem sout_B_1 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = k0_pay4 (bY x0 x1 x2 x3 x4 x6) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At an inner point (1 to 18), the carried z row is the block's last frame. -/
theorem sout_B_2 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = k0_pay5 (bZ x0 x1 x2 x3 x4 x7) := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At an inner point (1 to 18) the loss accumulator is the carried one updated by the block: one covering store. -/
theorem sout_B_3 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = lossUpd x0 x1 x2 x3 x4 x5 x6 x7 x8 x9 x10 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At an inner point (1 to 18) the smoothness accumulator is stored twice: the boundary difference is added to the carried value,
    that is read back, and the block's inner differences are added: the later store covers. -/
theorem sout_B_4 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : ¬cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = k0_pay2 (regBlock x0 x1 x2 x3 x4 x5 x6 x7) (regEdge x0 x1 x2 x3 x4 x5 x6 x7 xs0 xs1 xs2 xs4) := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_B
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-! ## Case C: the last grid point (the accumulators are also written to the two scalar outputs) -/

/-- At the last point, the x output's buffer holds the block's x coordinates: one covering store. -/
theorem out_C_11 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = bX x0 x1 x2 x3 x4 x5 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the last point, the y output's buffer holds the block's y coordinates. -/
theorem out_C_12 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = bY x0 x1 x2 x3 x4 x6 := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the last point, the z output's buffer holds the block's z coordinates. -/
theorem out_C_13 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = bZ x0 x1 x2 x3 x4 x7 := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the last point, the carried x row is the block's last frame (row 9999 of its x coordinates). -/
theorem sout_C_0 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = k0_pay3 (bX x0 x1 x2 x3 x4 x5) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the last point, the carried y row is the block's last frame. -/
theorem sout_C_1 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = k0_pay4 (bY x0 x1 x2 x3 x4 x6) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the last point, the carried z row is the block's last frame. -/
theorem sout_C_2 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = k0_pay5 (bZ x0 x1 x2 x3 x4 x7) := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the last point the loss accumulator is the carried one updated by the block: one covering store. -/
theorem sout_C_3 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = lossUpd x0 x1 x2 x3 x4 x5 x6 x7 x8 x9 x10 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the last point the smoothness accumulator is stored twice: the boundary difference is added to the carried value,
    that is read back, and the block's inner differences are added: the later store covers. -/
theorem sout_C_4 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = k0_pay2 (regBlock x0 x1 x2 x3 x4 x5 x6 x7) (regEdge x0 x1 x2 x3 x4 x5 x6 x7 xs0 xs1 xs2 xs4) := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_C
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the last point the loss output receives the loss accumulator read back AFTER this point's update. -/
theorem out_C_14 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = lossUpd x0 x1 x2 x3 x4 x5 x6 x7 x8 x9 x10 xs3 := by
  unfold out0_C_14
  rw [View.read_writes_eq_canon _ _ _ (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, shapeCast_self]

/-- At the last point the smoothness output receives the smoothness accumulator read back after both of this point's
    updates. -/
theorem out_C_15 (c : Dev nD) (i : grid0.Coords) (arg1 : Memref sig .tc .vmem S49x50 .f32) (harg1 : arg1.IsWhole) (arg2 : Memref sig .tc .vmem S1x49 .f32) (harg2 : arg2.IsWhole) (arg3 : Memref sig .tc .vmem S10000x49 .f32) (harg3 : arg3.IsWhole) (arg4 : Memref sig .tc .vmem S10000x49 .f32) (harg4 : arg4.IsWhole) (arg5 : Memref sig .tc .vmem S10000x49 .f32) (harg5 : arg5.IsWhole) (arg6 : Memref sig .tc .vmem S10000x1 .f32) (harg6 : arg6.IsWhole) (arg7 : Memref sig .tc .vmem S10000x1 .f32) (harg7 : arg7.IsWhole) (arg8 : Memref sig .tc .vmem S10000x1 .f32) (harg8 : arg8.IsWhole) (arg9 : Memref sig .tc .vmem S10000x50 .f32) (harg9 : arg9.IsWhole) (arg10 : Memref sig .tc .vmem S10000x50 .f32) (harg10 : arg10.IsWhole) (arg11 : Memref sig .tc .vmem S10000x50 .f32) (harg11 : arg11.IsWhole) (arg12 : Memref sig .tc .vmem S10000x50 .f32) (harg12 : arg12.IsWhole) (arg13 : Memref sig .tc .vmem S10000x50 .f32) (harg13 : arg13.IsWhole) (arg14 : Memref sig .tc .vmem S10000x50 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x50 .f32) (harg17 : arg17.IsWhole) (arg18 : Memref sig .tc .vmem S1x50 .f32) (harg18 : arg18.IsWhole) (arg19 : Memref sig .tc .vmem S1x50 .f32) (harg19 : arg19.IsWhole) (arg20 : Memref sig .tc .vmem S1x1 .f32) (harg20 : arg20.IsWhole) (arg21 : Memref sig .tc .vmem S1x1 .f32) (harg21 : arg21.IsWhole) (hc0 : ¬cond0_0 i) (hc1 : cond0_1 i) (hc2 : cond0_2 i)
    (x0 : Vec F S49x50 .f32) (x1 : Vec F S1x49 .f32) (x2 : Vec F S10000x49 .f32) (x3 : Vec F S10000x49 .f32) (x4 : Vec F S10000x49 .f32) (x5 : Vec F S10000x1 .f32) (x6 : Vec F S10000x1 .f32) (x7 : Vec F S10000x1 .f32) (x8 : Vec F S10000x50 .f32) (x9 : Vec F S10000x50 .f32) (x10 : Vec F S10000x50 .f32) (xs0 : Vec F S1x50 .f32) (xs1 : Vec F S1x50 .f32) (xs2 : Vec F S1x50 .f32) (xs3 : Vec F S1x1 .f32) (xs4 : Vec F S1x1 .f32) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4 = k0_pay2 (regBlock x0 x1 x2 x3 x4 x5 x6 x7) (regEdge x0 x1 x2 x3 x4 x5 x6 x7 xs0 xs1 xs2 xs4) := by
  unfold out0_C_15
  rw [View.read_writes_eq_canon _ _ _ (cover0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 xs0 xs1 xs2 xs3 xs4)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, harg18.read_unread, harg19.read_unread, harg20.read_unread, harg21.read_unread, View.ld_unit_zero (S := S49x50) hz, View.ld_unit_zero (S := S1x49) hz, View.ld_unit_zero (S := S10000x49) hz, View.ld_unit_zero (S := S10000x1) hz, View.ld_unit_zero (S := S10000x50) hz, View.ld_unit_zero (S := S1x50) hz, View.ld_unit_zero (S := S1x1) hz, View.readCov_unit_zero (S := S1x50) _ hz, View.readCov_unit_zero (S := S1x1) _ hz, readCov_cons_unit_zero (S := S1x1) _ hz, shapeCast_self]

end Cert.KernelIdeal.Pieces

end
-- ==== Proof.Spec.lean ====
/-
  What the two programs compute, as functions of the argument arrays read at coordinates.

  With l the 49 bone lengths (one per limb) and p the 49 x 50 path matrix, joint j of frame i has, in each coordinate,
  the root's coordinate plus the sum over the limbs k of l k * u(i,k) / (|(a,b,c)(i,k)| + eps) * p k j  (posArr).
  The scalar is  (0 + sum of the loss entries over 200000 x 50) / 1e7  +  0.001 * (bone lengths' sum)
  +  0.1 * ((0 + sum of the displacement entries over 199999 x 50) / 9999950),  the float literals read as the
  programs print them (totalOf). The sums are written over ranges of natural numbers (Sums.lean), the arrays read at
  natural-number coordinates, so that the sum over all frames splits into consecutive stretches of frames.
-/
import proofs.«158102_j3590592659458_1_alg».proof.Proof.Entry
import proofs.«158102_j3590592659458_1_alg».proof.Proof.Sums

noncomputable section

open scoped BigOperators

namespace Cert.Joints

open Idealize.ShloMosaic Idealize.ShloMosaic.ValueIdx Cert.Sums

/-- The shape with two axes of extents a and b. -/
abbrev Sh2 (a b : Nat) : Shape := ⟨2, ![a, b]⟩

/-- One coordinate of every joint of every frame. -/
def posArr (l : Fin 49 → EReal) (p : Fin 49 → Fin 50 → EReal) (r : (Sh2 200000 1).Idx → EReal)
    (u a b c : (Sh2 200000 49).Idx → EReal) : (Sh2 200000 50).Idx → EReal := fun i =>
  posE (r (ix2 (i 0) 0)) l (fun k => u (ix2 (i 0) k)) (fun k => a (ix2 (i 0) k)) (fun k => b (ix2 (i 0) k))
    (fun k => c (ix2 (i 0) k)) (fun k => p k (i 1))

/-- The loss entry of frame r and joint q (zero outside the extents). -/
def lossF (X Y tx ty w : (Sh2 200000 50).Idx → EReal) (r q : Nat) : EReal :=
  lossE (nat2 X r q) (nat2 Y r q) (nat2 tx r q) (nat2 ty r q) (nat2 w r q)

/-- The displacement entry between frames r and r + 1 at joint q. -/
def regF (X Y Z : (Sh2 200000 50).Idx → EReal) (r q : Nat) : EReal :=
  regE (nat2 X r q) (nat2 X (r + 1) q) (nat2 Y r q) (nat2 Y (r + 1) q) (nat2 Z r q) (nat2 Z (r + 1) q)

/-- The scalar result from the loss sum ls, the bone lengths' sum bs and the displacement sum rs. -/
def totalE (ls bs rs : EReal) : EReal :=
  (Ideal.div ls (Ideal.ofBits .f32 0x4B189680#32) + Ideal.ofBits .f32 0x3A83126F#32 * bs)
    + Ideal.ofBits .f32 0x3DCCCCCD#32 * Ideal.div rs (Ideal.ofBits .f32 0x4B18964E#32)

/-- The scalar result of the arrays. -/
def totalOf (bs : EReal) (X Y Z tx ty w : (Sh2 200000 50).Idx → EReal) : EReal :=
  totalE (0 + tot (lossF X Y tx ty w) 200000 50) bs (0 + tot (regF X Y Z) 199999 50)

end Cert.Joints

end
-- ==== Proof.KInv.lean ====
/-
  What one grid point of the kernel computes, in terms of the whole arrays.

  Grid point t handles the frames 10000 t .. 10000 t + 9999. Its three coordinate blocks are the rows of the
  joint-position arrays KX, KY, KZ (Spec.lean's posArr of the argument arrays, the bone lengths and the path matrix)
  with those frame numbers; the sum of its loss entries is the sum of the whole loss array over those frames; the sum
  of the squared displacements inside the block is the sum of the displacement array over the frames
  10000 t .. 10000 t + 9998; and the one displacement across the block's upper boundary, taken between the last
  row the point before kept and this block's first row, is the displacement array's row 10000 t - 1.

  Every grid point writes its three coordinate blocks back to frames 10000 t .. 10000 t + 9999 of the three result
  arrays, and the twenty blocks cover them, so those arrays end as KX, KY, KZ. The two scalar outputs are written
  back once, after the last point, holding the loss array's and the displacement array's whole sums.
-/
import proofs.«158102_j3590592659458_1_alg».proof.Proof.KPay
import proofs.«158102_j3590592659458_1_alg».proof.Proof.KRead
import proofs.«158102_j3590592659458_1_alg».proof.Proof.KPieces
import proofs.«158102_j3590592659458_1_alg».proof.Proof.Spec
import Idealize.ShloMosaic.Lib.Pipeline.Value

set_option maxRecDepth 16384

noncomputable section

open scoped BigOperators

namespace Cert.KernelIdeal.Value

open Cert.KernelIdeal Cert.KernelIdeal.Gen Cert.KernelIdeal.GenP Idealize.ShloMosaic Idealize.ShloMosaic.TcCoe Idealize.ShloMosaic.ValueIdx Idealize.SL.Sem
open Idealize.ShloMosaic.Pipeline (Dat)
open Cert.Joints Cert.Sums Cert.KernelIdeal.Read

variable (m : (ℓ : Loc nD τ sig) → Buf (Elt Ideal) ℓ) (c : Dev nD)

/-! ## The argument arrays, the tables, the three coordinate arrays -/

abbrev A0 : S20.Idx → EReal := m ((c : Thread nD τ).loc main_arg0)
abbrev A1 : (Sh2 200000 1).Idx → EReal := m ((c : Thread nD τ).loc main_arg1)
abbrev A2 : (Sh2 200000 1).Idx → EReal := m ((c : Thread nD τ).loc main_arg2)
abbrev A3 : (Sh2 200000 1).Idx → EReal := m ((c : Thread nD τ).loc main_arg3)
abbrev A4 : (Sh2 200000 49).Idx → EReal := m ((c : Thread nD τ).loc main_arg4)
abbrev A5 : (Sh2 200000 49).Idx → EReal := m ((c : Thread nD τ).loc main_arg5)
abbrev A6 : (Sh2 200000 49).Idx → EReal := m ((c : Thread nD τ).loc main_arg6)
abbrev A7 : (Sh2 200000 50).Idx → EReal := m ((c : Thread nD τ).loc main_arg7)
abbrev A8 : (Sh2 200000 50).Idx → EReal := m ((c : Thread nD τ).loc main_arg8)
abbrev A9 : (Sh2 200000 50).Idx → EReal := m ((c : Thread nD τ).loc main_arg9)

/-- The bone length of limb k. -/
def lK : Fin 49 → EReal := fun k => Read.limbs (F := Ideal) (A0 m c) (ix1 k)

/-- The path matrix's entry (k, q). -/
def pK : Fin 49 → Fin 50 → EReal := fun k q => Read.pathT (F := Ideal) (ix2 k q)

/-- The joints' x, y and z coordinates, every frame. -/
def KX : (Sh2 200000 50).Idx → EReal := posArr (lK m c) pK (A1 m c) (A4 m c) (A4 m c) (A5 m c) (A6 m c)
def KY : (Sh2 200000 50).Idx → EReal := posArr (lK m c) pK (A2 m c) (A5 m c) (A4 m c) (A5 m c) (A6 m c)
def KZ : (Sh2 200000 50).Idx → EReal := posArr (lK m c) pK (A3 m c) (A6 m c) (A4 m c) (A5 m c) (A6 m c)

/-- The loss entries and the displacement entries of the whole arrays. -/
abbrev lossG : Nat → Nat → EReal := lossF (KX m c) (KY m c) (A7 m c) (A8 m c) (A9 m c)
abbrev regG : Nat → Nat → EReal := regF (KX m c) (KY m c) (KZ m c)

/-! ## The blocks of point t -/

abbrev bXt (t : Fin cfg0.N) : FVec Ideal S10000x50 .f32 :=
  Pieces.bX (iblk m c 0 t) (iblk m c 1 t) (iblk m c 2 t) (iblk m c 3 t) (iblk m c 4 t) (iblk m c 5 t)
abbrev bYt (t : Fin cfg0.N) : FVec Ideal S10000x50 .f32 :=
  Pieces.bY (iblk m c 0 t) (iblk m c 1 t) (iblk m c 2 t) (iblk m c 3 t) (iblk m c 4 t) (iblk m c 6 t)
abbrev bZt (t : Fin cfg0.N) : FVec Ideal S10000x50 .f32 :=
  Pieces.bZ (iblk m c 0 t) (iblk m c 1 t) (iblk m c 2 t) (iblk m c 3 t) (iblk m c 4 t) (iblk m c 7 t)

/-- Row p of point t's x block is frame 10000 t + p of the x array. -/
theorem bXt_apply (t : Fin cfg0.N) (p : Fin 10000) (q : Fin 50) : bXt m c t (ix2 p q) = KX m c (ix2 (row t p) q) := by
  refine (Pay.pay10_apply (iblk m c 2 t) (iblk m c 3 t) (iblk m c 4 t) (iblk m c 1 t) (iblk m c 0 t) (iblk m c 5 t) p q).trans ?_
  unfold KX posArr lK pK
  simp only [Read.iblk0_apply, Read.iblk1_apply, Read.iblk2_apply, Read.iblk3_apply, Read.iblk4_apply, Read.iblk5_apply]

theorem bYt_apply (t : Fin cfg0.N) (p : Fin 10000) (q : Fin 50) : bYt m c t (ix2 p q) = KY m c (ix2 (row t p) q) := by
  refine (Pay.pay11_apply (iblk m c 2 t) (iblk m c 3 t) (iblk m c 4 t) (iblk m c 1 t) (iblk m c 0 t) (iblk m c 6 t) p q).trans ?_
  unfold KY posArr lK pK
  simp only [Read.iblk0_apply, Read.iblk1_apply, Read.iblk2_apply, Read.iblk3_apply, Read.iblk4_apply, Read.iblk6_apply]

theorem bZt_apply (t : Fin cfg0.N) (p : Fin 10000) (q : Fin 50) : bZt m c t (ix2 p q) = KZ m c (ix2 (row t p) q) := by
  refine (Pay.pay13_apply (iblk m c 2 t) (iblk m c 3 t) (iblk m c 4 t) (iblk m c 1 t) (iblk m c 0 t) (iblk m c 7 t) p q).trans ?_
  unfold KZ posArr lK pK
  simp only [Read.iblk0_apply, Read.iblk1_apply, Read.iblk2_apply, Read.iblk3_apply, Read.iblk4_apply, Read.iblk7_apply]

/-- An array read at frame 10000 t + p. -/
theorem nat2_row (x : (Sh2 200000 50).Idx → EReal) (t : Fin cfg0.N) (p : Fin 10000) (q : Fin 50) :
    nat2 x (10000 * t.val + p.val) q.val = x (ix2 (row t p) q) := nat2_val x (row t p) q

/-! ## The sums of point t -/

/-- The block's loss entries sum to the loss array's sum over the block's frames. -/
theorem lossBlock_eq (t : Fin cfg0.N) :
    ∑ y : S10000x50.Idx, lossE (bXt m c t y) (bYt m c t y) ((iblk m c 8 t : Vec Ideal S10000x50 .f32) y)
        ((iblk m c 9 t : Vec Ideal S10000x50 .f32) y) ((iblk m c 10 t : Vec Ideal S10000x50 .f32) y)
      = tot (fun r q => lossG m c (10000 * t.val + r) q) 10000 50 := by
  refine sum_idx_eq_tot _ _ fun p q => ?_
  rw [bXt_apply, bYt_apply, Read.iblk8_apply, Read.iblk9_apply, Read.iblk10_apply]
  show _ = lossE _ _ _ _ _
  rw [nat2_row, nat2_row, nat2_row, nat2_row, nat2_row]

/-- The displacements inside the block sum to the displacement array's sum over the block's first 9999 frames. -/
theorem regBlock_eq (t : Fin cfg0.N) :
    ∑ y : S9999x50.Idx, Pieces.regBlock (F := Ideal) (iblk m c 0 t) (iblk m c 1 t) (iblk m c 2 t) (iblk m c 3 t) (iblk m c 4 t)
        (iblk m c 5 t) (iblk m c 6 t) (iblk m c 7 t) y
      = tot (fun r q => regG m c (10000 * t.val + r) q) 9999 50 := by
  refine sum_idx_eq_tot _ _ fun p q => ?_
  have hp : p.val < 9999 := p.isLt
  refine (Pay.pay15_apply (bXt m c t) (bYt m c t) (iblk m c 7 t) _ p q).trans ?_
  show regE (bXt m c t (ix2 ⟨p.val, by omega⟩ q)) (bXt m c t (ix2 ⟨p.val + 1, by omega⟩ q))
      (bYt m c t (ix2 ⟨p.val, by omega⟩ q)) (bYt m c t (ix2 ⟨p.val + 1, by omega⟩ q))
      (bZt m c t (ix2 ⟨p.val, by omega⟩ q)) (bZt m c t (ix2 ⟨p.val + 1, by omega⟩ q)) = regE _ _ _ _ _ _
  rw [bXt_apply, bXt_apply, bYt_apply, bYt_apply, bZt_apply, bZt_apply]
  have e0 (x : (Sh2 200000 50).Idx → EReal) : nat2 x (10000 * t.val + p.val) q.val = x (ix2 (row t ⟨p.val, by omega⟩) q) :=
    nat2_row x t ⟨p.val, by omega⟩ q
  have e1 (x : (Sh2 200000 50).Idx → EReal) : nat2 x (10000 * t.val + p.val + 1) q.val = x (ix2 (row t ⟨p.val + 1, by omega⟩) q) :=
    nat2_row x t ⟨p.val + 1, by omega⟩ q
  rw [e0, e0, e0, e1, e1, e1]

/-! ## What every point leaves in the coordinate outputs and in the three carried rows -/

/-- The scratch and outputs after point t, by name. -/
abbrev s0 (t : Fin cfg0.N) : Vec Ideal S1x50 .f32 := (outsAt0 m c t.val t.isLt).2.2.2.2.2.1
abbrev s1 (t : Fin cfg0.N) : Vec Ideal S1x50 .f32 := (outsAt0 m c t.val t.isLt).2.2.2.2.2.2.1
abbrev s2 (t : Fin cfg0.N) : Vec Ideal S1x50 .f32 := (outsAt0 m c t.val t.isLt).2.2.2.2.2.2.2.1
abbrev s3 (t : Fin cfg0.N) : Vec Ideal S1x1 .f32 := (outsAt0 m c t.val t.isLt).2.2.2.2.2.2.2.2.1
abbrev s4 (t : Fin cfg0.N) : Vec Ideal S1x1 .f32 := (outsAt0 m c t.val t.isLt).2.2.2.2.2.2.2.2.2

theorem tN (t : Fin cfg0.N) : t.val < 20 := lt_of_lt_of_eq t.isLt (show cfg0.N = 20 from N_0)

/-- Whatever the control case, a point stores its three coordinate blocks and keeps their last rows. -/
theorem point_eq (t : Fin cfg0.N) :
    (outsAt0 m c t.val t.isLt).1 = bXt m c t ∧ (outsAt0 m c t.val t.isLt).2.1 = bYt m c t
    ∧ (outsAt0 m c t.val t.isLt).2.2.1 = bZt m c t
    ∧ s0 m c t = k0_pay3 (bXt m c t) ∧ s1 m c t = k0_pay4 (bYt m c t) ∧ s2 m c t = k0_pay5 (bZt m c t) := by
  have hN := tN t
  by_cases h0 : t.val % 20 = 0
  · have h1 : ¬1 ≤ t.val := by omega
    have h2 : ¬t.val % 20 = 19 := by omega
    unfold s0 s1 s2
    rw [outsAt0_A m c t h0 h1 h2]
    dsimp only
    exact ⟨Pieces.out_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), Pieces.out_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), Pieces.out_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t),
      Pieces.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), Pieces.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), Pieces.sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)⟩
  · have h1 : 1 ≤ t.val := by omega
    by_cases h2 : t.val % 20 = 19
    · unfold s0 s1 s2
      rw [outsAt0_C m c t h0 h1 h2]
      dsimp only
      exact ⟨Pieces.out_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, Pieces.out_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, Pieces.out_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2,
        Pieces.sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, Pieces.sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, Pieces.sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2⟩
    · unfold s0 s1 s2
      rw [outsAt0_B m c t h0 h1 h2]
      dsimp only
      exact ⟨Pieces.out_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, Pieces.out_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, Pieces.out_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2,
        Pieces.sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, Pieces.sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, Pieces.sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2⟩

/-! ## The two accumulators, one point after the other -/

/-- The first point adds its loss sum to the zero just stored, and its inner displacements likewise. -/
theorem acc_first (t : Fin cfg0.N) (h0 : t.val % 20 = 0) :
    s3 m c t = Pieces.lossUpd (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay6 (F := Ideal))
    ∧ s4 m c t = k0_pay2 (Pieces.regBlock (iblk m c 0 t) (iblk m c 1 t) (iblk m c 2 t) (iblk m c 3 t) (iblk m c 4 t) (iblk m c 5 t) (iblk m c 6 t) (iblk m c 7 t)) (k0_pay7 (F := Ideal)) := by
  have hN := tN t
  have h1 : ¬1 ≤ t.val := by omega
  have h2 : ¬t.val % 20 = 19 := by omega
  unfold s3 s4
  rw [outsAt0_A m c t h0 h1 h2]
  dsimp only
  exact ⟨Pieces.sout_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), Pieces.sout_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)⟩

/-- A later point adds its loss sum to what the point before left, and to the displacement accumulator first the
    displacement across the boundary (against the rows the point before kept), then its inner displacements. -/
theorem acc_next (t : Fin cfg0.N) (h0 : ¬t.val % 20 = 0) :
    s3 m c t = Pieces.lossUpd (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2.2.2.1
    ∧ s4 m c t = k0_pay2 (Pieces.regBlock (iblk m c 0 t) (iblk m c 1 t) (iblk m c 2 t) (iblk m c 3 t) (iblk m c 4 t) (iblk m c 5 t) (iblk m c 6 t) (iblk m c 7 t))
        (Pieces.regEdge (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.2) := by
  have hN := tN t
  have h1 : 1 ≤ t.val := by omega
  by_cases h2 : t.val % 20 = 19
  · unfold s3 s4
    rw [outsAt0_C m c t h0 h1 h2]
    dsimp only
    exact ⟨Pieces.sout_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, Pieces.sout_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2⟩
  · unfold s3 s4
    rw [outsAt0_B m c t h0 h1 h2]
    dsimp only
    exact ⟨Pieces.sout_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, Pieces.sout_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2⟩

/-- The last point also copies the two accumulators, as it leaves them, into the two scalar outputs. -/
theorem out_last (t : Fin cfg0.N) (h2 : t.val % 20 = 19) :
    (outsAt0 m c t.val t.isLt).2.2.2.1 = s3 m c t ∧ (outsAt0 m c t.val t.isLt).2.2.2.2.1 = s4 m c t := by
  have hN := tN t
  have h0 : ¬t.val % 20 = 0 := by omega
  have h1 : 1 ≤ t.val := by omega
  unfold s3 s4
  rw [outsAt0_C m c t h0 h1 h2]
  dsimp only
  exact ⟨(Pieces.out_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2).trans (Pieces.sout_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2).symm,
    (Pieces.out_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2).trans (Pieces.sout_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2).symm⟩

/-! ## The accumulators' values -/

/-- The loss accumulator after point n: the loss array's sum over the frames below 10000 n + 10000. -/
def lossAcc (n : Nat) : EReal := tot (lossG m c) (10000 * n + 10000) 50

/-- The displacement accumulator after point n: the displacement array's sum over the frames below 10000 n + 9999. -/
def regAcc (n : Nat) : EReal := tot (regG m c) (10000 * n + 9999) 50

/-- A point's loss update adds the loss array's sum over the point's frames. -/
theorem lossUpd_eq (t : Fin cfg0.N) (acc : Vec Ideal S1x1 .f32) :
    Pieces.lossUpd (iblk m c 0 t) (iblk m c 1 t) (iblk m c 2 t) (iblk m c 3 t) (iblk m c 4 t) (iblk m c 5 t) (iblk m c 6 t) (iblk m c 7 t) (iblk m c 8 t) (iblk m c 9 t) (iblk m c 10 t) acc
      = fun _ => acc (ix2 0 0) + tot (fun r q => lossG m c (10000 * t.val + r) q) 10000 50 := by
  refine (Pay.pay14_eq (bXt m c t) (bYt m c t) (iblk m c 10 t) (iblk m c 8 t) (iblk m c 9 t) acc).trans ?_
  funext _
  exact congrArg (acc (ix2 0 0) + ·) (lossBlock_eq m c t)

/-- A point's inner displacements add the displacement array's sum over the point's first 9999 frames. -/
theorem regInner_eq (t : Fin cfg0.N) (acc : Vec Ideal S1x1 .f32) :
    k0_pay2 (Pieces.regBlock (iblk m c 0 t) (iblk m c 1 t) (iblk m c 2 t) (iblk m c 3 t) (iblk m c 4 t) (iblk m c 5 t) (iblk m c 6 t) (iblk m c 7 t)) acc
      = fun _ => acc (ix2 0 0) + tot (fun r q => regG m c (10000 * t.val + r) q) 9999 50 := by
  refine (Pay.pay2_eq _ acc).trans ?_
  funext _
  exact congrArg (acc (ix2 0 0) + ·) (regBlock_eq m c t)

/-- The displacement across a point's upper boundary, against rows that hold frame 10000 n + 9999 of the three arrays,
    is the displacement array's row 10000 n + 9999. -/
theorem regEdge_eq (t : Fin cfg0.N) (n : Nat) (hn : t.val = n + 1) (xs0 xs1 xs2 : Vec Ideal S1x50 .f32) (acc : Vec Ideal S1x1 .f32)
    (h0 : ∀ q : Fin 50, xs0 (ix2 0 q) = nat2 (KX m c) (10000 * n + 9999) q.val)
    (h1 : ∀ q : Fin 50, xs1 (ix2 0 q) = nat2 (KY m c) (10000 * n + 9999) q.val)
    (h2 : ∀ q : Fin 50, xs2 (ix2 0 q) = nat2 (KZ m c) (10000 * n + 9999) q.val) :
    Pieces.regEdge (iblk m c 0 t) (iblk m c 1 t) (iblk m c 2 t) (iblk m c 3 t) (iblk m c 4 t) (iblk m c 5 t) (iblk m c 6 t) (iblk m c 7 t) xs0 xs1 xs2 acc
      = fun _ => acc (ix2 0 0) + ∑ q ∈ Finset.range 50, regG m c (10000 * n + 9999) q := by
  refine (Pay.pay1_eq (bXt m c t) (bYt m c t) (bZt m c t) xs0 xs1 xs2 acc).trans ?_
  funext _
  refine congrArg (acc (ix2 0 0) + ·) (sum_row_eq _ _ fun q => ?_)
  show regE (xs0 (ix2 0 q)) (bXt m c t (ix2 0 q)) (xs1 (ix2 0 q)) (bYt m c t (ix2 0 q)) (xs2 (ix2 0 q)) (bZt m c t (ix2 0 q))
    = regE (nat2 (KX m c) (10000 * n + 9999) q.val) (nat2 (KX m c) (10000 * n + 9999 + 1) q.val)
        (nat2 (KY m c) (10000 * n + 9999) q.val) (nat2 (KY m c) (10000 * n + 9999 + 1) q.val)
        (nat2 (KZ m c) (10000 * n + 9999) q.val) (nat2 (KZ m c) (10000 * n + 9999 + 1) q.val)
  have e (x : (Sh2 200000 50).Idx → EReal) : nat2 x (10000 * n + 9999 + 1) q.val = x (ix2 (row t 0) q) := by
    have hr : 10000 * n + 9999 + 1 = 10000 * t.val + 0 := by omega
    rw [hr]
    exact nat2_row x t 0 q
  rw [h0, h1, h2, bXt_apply, bYt_apply, bZt_apply, e, e, e]

/-- The rows a point keeps hold its last frame of the three arrays. -/
theorem kept_rows (t : Fin cfg0.N) (q : Fin 50) :
    s0 m c t (ix2 0 q) = nat2 (KX m c) (10000 * t.val + 9999) q.val
    ∧ s1 m c t (ix2 0 q) = nat2 (KY m c) (10000 * t.val + 9999) q.val
    ∧ s2 m c t (ix2 0 q) = nat2 (KZ m c) (10000 * t.val + 9999) q.val := by
  obtain ⟨-, -, -, e0, e1, e2⟩ := point_eq m c t
  rw [e0, e1, e2, Pay.pay3_apply, Pay.pay4_apply, Pay.pay5_apply, bXt_apply, bYt_apply, bZt_apply]
  exact ⟨(nat2_row _ t 9999 q).symm, (nat2_row _ t 9999 q).symm, (nat2_row _ t 9999 q).symm⟩

/-- After every point the two accumulators hold the two arrays' sums over all frames so far. -/
theorem acc_eq : ∀ (n : Nat) (h : n < cfg0.N),
    s3 m c ⟨n, h⟩ = (fun _ => lossAcc m c n) ∧ s4 m c ⟨n, h⟩ = (fun _ => regAcc m c n)
  | 0, h => by
    obtain ⟨e3, e4⟩ := acc_first m c ⟨0, h⟩ rfl
    constructor
    · rw [e3, lossUpd_eq, Pay.pay6_eq]
      funext _
      show (0 : EReal) + tot (fun r q => lossG m c (10000 * 0 + r) q) 10000 50 = tot (lossG m c) (10000 * 0 + 10000) 50
      rw [zero_add]
      exact tot_congr fun r q _ _ => by rw [Nat.mul_zero, Nat.zero_add]
    · rw [e4, regInner_eq, Pay.pay7_eq]
      funext _
      show (0 : EReal) + tot (fun r q => regG m c (10000 * 0 + r) q) 9999 50 = tot (regG m c) (10000 * 0 + 9999) 50
      rw [zero_add]
      exact tot_congr fun r q _ _ => by rw [Nat.mul_zero, Nat.zero_add]
  | n + 1, h => by
    have hN : n + 1 < 20 := lt_of_lt_of_eq h (show cfg0.N = 20 from N_0)
    have hn : n < cfg0.N := Nat.lt_of_succ_lt h
    obtain ⟨i3, i4⟩ := acc_eq n hn
    obtain ⟨e3, e4⟩ := acc_next m c ⟨n + 1, h⟩ (by show ¬(n + 1) % 20 = 0; omega)
    constructor
    · rw [e3, lossUpd_eq]
      funext _
      show s3 m c ⟨n, hn⟩ (ix2 0 0) + tot (fun r q => lossG m c (10000 * (n + 1) + r) q) 10000 50 = lossAcc m c (n + 1)
      rw [i3]
      show tot (lossG m c) (10000 * n + 10000) 50 + tot (fun r q => lossG m c (10000 * (n + 1) + r) q) 10000 50
        = tot (lossG m c) (10000 * (n + 1) + 10000) 50
      rw [show 10000 * (n + 1) = 10000 * n + 10000 from by omega]
      exact (tot_add (lossG m c) (10000 * n + 10000) 10000 50).symm
    · rw [e4, regInner_eq]
      funext _
      have hE := regEdge_eq m c ⟨n + 1, h⟩ n rfl (s0 m c ⟨n, hn⟩) (s1 m c ⟨n, hn⟩) (s2 m c ⟨n, hn⟩) (s4 m c ⟨n, hn⟩)
        (fun q => (kept_rows m c ⟨n, hn⟩ q).1) (fun q => (kept_rows m c ⟨n, hn⟩ q).2.1) (fun q => (kept_rows m c ⟨n, hn⟩ q).2.2)
      refine (congrArg (· + tot (fun r q => regG m c (10000 * (n + 1) + r) q) 9999 50) (congrFun hE (ix2 0 0))).trans ?_
      show (s4 m c ⟨n, hn⟩ (ix2 0 0) + ∑ q ∈ Finset.range 50, regG m c (10000 * n + 9999) q)
          + tot (fun r q => regG m c (10000 * (n + 1) + r) q) 9999 50 = regAcc m c (n + 1)
      rw [i4]
      show (tot (regG m c) (10000 * n + 9999) 50 + ∑ q ∈ Finset.range 50, regG m c (10000 * n + 9999) q)
          + tot (fun r q => regG m c (10000 * (n + 1) + r) q) 9999 50 = tot (regG m c) (10000 * (n + 1) + 9999) 50
      rw [← tot_succ, show 10000 * n + 9999 + 1 = 10000 * (n + 1) from by omega]
      exact (tot_add (regG m c) (10000 * (n + 1)) 9999 50).symm

/-- The last point: the two scalar outputs hold the two arrays' whole sums. -/
theorem out_sums (t : Fin cfg0.N) (h2 : t.val % 20 = 19) :
    (outsAt0 m c t.val t.isLt).2.2.2.1 = (fun _ => tot (lossG m c) 200000 50)
    ∧ (outsAt0 m c t.val t.isLt).2.2.2.2.1 = (fun _ => tot (regG m c) 199999 50) := by
  have h19 : t.val = 19 := by have := tN t; omega
  obtain ⟨o3, o4⟩ := out_last m c t h2
  obtain ⟨i3, i4⟩ := acc_eq m c t.val t.isLt
  have l19 : lossAcc m c t.val = tot (lossG m c) 200000 50 := by unfold lossAcc; rw [h19]
  have r19 : regAcc m c t.val = tot (regG m c) 199999 50 := by unfold regAcc; rw [h19]
  exact ⟨o3.trans (i3.trans (by rw [l19])), o4.trans (i4.trans (by rw [r19]))⟩

/-! # What the five output arrays hold after the last grid point -/

/-! ## The three coordinate arrays -/

/-- Block t of each coordinate output starts at frame 10000 t, column 0; the scalar outputs' one block is the array. -/
theorem idx_out : ∀ t : Fin cfg0.N,
    win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

/-- Entry (p, q) of block t sits at frame 10000 t + p, column q of the array. -/
theorem emb11 (t : Fin cfg0.N) (p : Fin 10000) (q : Fin 50) :
    ((cfg0.win 11).blk t).view.emb (ix2 p q) = ix2 (row t p) q := by
  obtain ⟨e0, e1, -⟩ := idx_out t
  funext a; apply Fin.ext
  match a with
  | ⟨0, _⟩ => show win0_11.index t (0 : Fin 2) * 10000 + 1 * p.val = 10000 * t.val + p.val; rw [e0]; omega
  | ⟨1, _⟩ => show win0_11.index t (1 : Fin 2) * 50 + 1 * q.val = q.val; rw [e1]; omega

theorem emb12 (t : Fin cfg0.N) (p : Fin 10000) (q : Fin 50) :
    ((cfg0.win 12).blk t).view.emb (ix2 p q) = ix2 (row t p) q := by
  obtain ⟨-, -, e0, e1, -⟩ := idx_out t
  funext a; apply Fin.ext
  match a with
  | ⟨0, _⟩ => show win0_12.index t (0 : Fin 2) * 10000 + 1 * p.val = 10000 * t.val + p.val; rw [e0]; omega
  | ⟨1, _⟩ => show win0_12.index t (1 : Fin 2) * 50 + 1 * q.val = q.val; rw [e1]; omega

theorem emb13 (t : Fin cfg0.N) (p : Fin 10000) (q : Fin 50) :
    ((cfg0.win 13).blk t).view.emb (ix2 p q) = ix2 (row t p) q := by
  obtain ⟨-, -, -, -, e0, e1, -⟩ := idx_out t
  funext a; apply Fin.ext
  match a with
  | ⟨0, _⟩ => show win0_13.index t (0 : Fin 2) * 10000 + 1 * p.val = 10000 * t.val + p.val; rw [e0]; omega
  | ⟨1, _⟩ => show win0_13.index t (1 : Fin 2) * 50 + 1 * q.val = q.val; rw [e1]; omega

/-- What point t writes back to the x output is block t of KX. -/
theorem flushed11_eq (t : Fin cfg0.N) :
    (dats m 0 c).flushed 11 t = ((cfg0.win 11).blk t).view.read (Elt Ideal) (KX m c) := by
  show (cfg0.win 11).cut (grid0.coords t) ((dats m 0 c).after 11 t) = _
  rw [after0_11, (point_eq m c t).1]
  funext j
  obtain ⟨p, q, rfl⟩ : ∃ (p : Fin 10000) (q : Fin 50), j = ix2 p q := ⟨j 0, j 1, eq_ix2 j⟩
  show bXt m c t (ix2 p q) = KX m c (((cfg0.win 11).blk t).view.emb (ix2 p q))
  rw [emb11, bXt_apply]

theorem flushed12_eq (t : Fin cfg0.N) :
    (dats m 0 c).flushed 12 t = ((cfg0.win 12).blk t).view.read (Elt Ideal) (KY m c) := by
  show (cfg0.win 12).cut (grid0.coords t) ((dats m 0 c).after 12 t) = _
  rw [after0_12, (point_eq m c t).2.1]
  funext j
  obtain ⟨p, q, rfl⟩ : ∃ (p : Fin 10000) (q : Fin 50), j = ix2 p q := ⟨j 0, j 1, eq_ix2 j⟩
  show bYt m c t (ix2 p q) = KY m c (((cfg0.win 12).blk t).view.emb (ix2 p q))
  rw [emb12, bYt_apply]

theorem flushed13_eq (t : Fin cfg0.N) :
    (dats m 0 c).flushed 13 t = ((cfg0.win 13).blk t).view.read (Elt Ideal) (KZ m c) := by
  show (cfg0.win 13).cut (grid0.coords t) ((dats m 0 c).after 13 t) = _
  rw [after0_13, (point_eq m c t).2.2.1]
  funext j
  obtain ⟨p, q, rfl⟩ : ∃ (p : Fin 10000) (q : Fin 50), j = ix2 p q := ⟨j 0, j 1, eq_ix2 j⟩
  show bZt m c t (ix2 p q) = KZ m c (((cfg0.win 13).blk t).view.emb (ix2 p q))
  rw [emb13, bZt_apply]

/-- An index of a coordinate array lies in block t iff each coordinate lies in the block's range. -/
theorem mem_blk11 (t : Fin cfg0.N) (i : S200000x50.Idx) :
    i ∈ ((cfg0.win 11).blk t).view.set ↔ ∀ a : Fin 2, win0_11.index t a * S10000x50.size a ≤ (i a).val ∧ (i a).val < win0_11.index t a * S10000x50.size a + S10000x50.size a := by
  show i ∈ ((View.whole main_v9_0).slice (win0_11.rect t)).set ↔ _
  rw [View.set_slice_whole, Rect.mem_set_unit]
  exact Iff.rfl

theorem mem_blk12 (t : Fin cfg0.N) (i : S200000x50.Idx) :
    i ∈ ((cfg0.win 12).blk t).view.set ↔ ∀ a : Fin 2, win0_12.index t a * S10000x50.size a ≤ (i a).val ∧ (i a).val < win0_12.index t a * S10000x50.size a + S10000x50.size a := by
  show i ∈ ((View.whole main_v9_1).slice (win0_12.rect t)).set ↔ _
  rw [View.set_slice_whole, Rect.mem_set_unit]
  exact Iff.rfl

theorem mem_blk13 (t : Fin cfg0.N) (i : S200000x50.Idx) :
    i ∈ ((cfg0.win 13).blk t).view.set ↔ ∀ a : Fin 2, win0_13.index t a * S10000x50.size a ≤ (i a).val ∧ (i a).val < win0_13.index t a * S10000x50.size a + S10000x50.size a := by
  show i ∈ ((View.whole main_v9_2).slice (win0_13.rect t)).set ↔ _
  rw [View.set_slice_whole, Rect.mem_set_unit]
  exact Iff.rfl

/-- The point that covers frame r is r / 10000. -/
def pointOf (i : S200000x50.Idx) : Fin cfg0.N :=
  ⟨(i 0).val / 10000, by
    have h : (i 0).val < 200000 := (i 0).isLt
    rw [show cfg0.N = 20 from N_0]; omega⟩

theorem final11 : (dats m 0 c).arrAt 11 cfg0.N = KX m c :=
  (dats m 0 c).arrAt_eq_of_cover 11 (KX m c) (fun t _ => flushed11_eq m c t) fun i =>
    ⟨pointOf i, flush0_11 (pointOf i), by
      rw [mem_blk11]
      obtain ⟨e0, e1, -⟩ := idx_out (pointOf i)
      have h0 : (i 0).val < 200000 := (i 0).isLt
      have h1 : (i 1).val < 50 := (i 1).isLt
      intro a
      match a with
      | ⟨0, _⟩ => show win0_11.index (pointOf i) (0 : Fin 2) * 10000 ≤ (i 0).val ∧ (i 0).val < win0_11.index (pointOf i) (0 : Fin 2) * 10000 + 10000
                  rw [e0]; show (i 0).val / 10000 * 10000 ≤ (i 0).val ∧ (i 0).val < (i 0).val / 10000 * 10000 + 10000; omega
      | ⟨1, _⟩ => show win0_11.index (pointOf i) (1 : Fin 2) * 50 ≤ (i 1).val ∧ (i 1).val < win0_11.index (pointOf i) (1 : Fin 2) * 50 + 50
                  rw [e1]; omega⟩

theorem final12 : (dats m 0 c).arrAt 12 cfg0.N = KY m c :=
  (dats m 0 c).arrAt_eq_of_cover 12 (KY m c) (fun t _ => flushed12_eq m c t) fun i =>
    ⟨pointOf i, flush0_12 (pointOf i), by
      rw [mem_blk12]
      obtain ⟨-, -, e0, e1, -⟩ := idx_out (pointOf i)
      have h0 : (i 0).val < 200000 := (i 0).isLt
      have h1 : (i 1).val < 50 := (i 1).isLt
      intro a
      match a with
      | ⟨0, _⟩ => show win0_12.index (pointOf i) (0 : Fin 2) * 10000 ≤ (i 0).val ∧ (i 0).val < win0_12.index (pointOf i) (0 : Fin 2) * 10000 + 10000
                  rw [e0]; show (i 0).val / 10000 * 10000 ≤ (i 0).val ∧ (i 0).val < (i 0).val / 10000 * 10000 + 10000; omega
      | ⟨1, _⟩ => show win0_12.index (pointOf i) (1 : Fin 2) * 50 ≤ (i 1).val ∧ (i 1).val < win0_12.index (pointOf i) (1 : Fin 2) * 50 + 50
                  rw [e1]; omega⟩

theorem final13 : (dats m 0 c).arrAt 13 cfg0.N = KZ m c :=
  (dats m 0 c).arrAt_eq_of_cover 13 (KZ m c) (fun t _ => flushed13_eq m c t) fun i =>
    ⟨pointOf i, flush0_13 (pointOf i), by
      rw [mem_blk13]
      obtain ⟨-, -, -, -, e0, e1, -⟩ := idx_out (pointOf i)
      have h0 : (i 0).val < 200000 := (i 0).isLt
      have h1 : (i 1).val < 50 := (i 1).isLt
      intro a
      match a with
      | ⟨0, _⟩ => show win0_13.index (pointOf i) (0 : Fin 2) * 10000 ≤ (i 0).val ∧ (i 0).val < win0_13.index (pointOf i) (0 : Fin 2) * 10000 + 10000
                  rw [e0]; show (i 0).val / 10000 * 10000 ≤ (i 0).val ∧ (i 0).val < (i 0).val / 10000 * 10000 + 10000; omega
      | ⟨1, _⟩ => show win0_13.index (pointOf i) (1 : Fin 2) * 50 ≤ (i 1).val ∧ (i 1).val < win0_13.index (pointOf i) (1 : Fin 2) * 50 + 50
                  rw [e1]; omega⟩

/-! ## The two scalar outputs -/

theorem mem_blk14 (t : Fin cfg0.N) (i : S1x1.Idx) :
    i ∈ ((cfg0.win 14).blk t).view.set ↔ ∀ a : Fin 2, win0_14.index t a * S1x1.size a ≤ (i a).val ∧ (i a).val < win0_14.index t a * S1x1.size a + S1x1.size a := by
  show i ∈ ((View.whole main_v9_3).slice (win0_14.rect t)).set ↔ _
  rw [View.set_slice_whole, Rect.mem_set_unit]
  exact Iff.rfl

theorem mem_blk15 (t : Fin cfg0.N) (i : S1x1.Idx) :
    i ∈ ((cfg0.win 15).blk t).view.set ↔ ∀ a : Fin 2, win0_15.index t a * S1x1.size a ≤ (i a).val ∧ (i a).val < win0_15.index t a * S1x1.size a + S1x1.size a := by
  show i ∈ ((View.whole main_v9_4).slice (win0_15.rect t)).set ↔ _
  rw [View.set_slice_whole, Rect.mem_set_unit]
  exact Iff.rfl

/-- The last grid point. -/
def lastPoint : Fin cfg0.N := ⟨19, by rw [show cfg0.N = 20 from N_0]; decide⟩

/-- The one write-back of the loss output, after the last point, writes the loss array's whole sum. -/
theorem flushed14_eq (t : Fin cfg0.N) (hf : (cfg0.win 14).flush t = true) :
    (dats m 0 c).flushed 14 t = ((cfg0.win 14).blk t).view.read (Elt Ideal) (fun _ => tot (lossG m c) 200000 50) := by
  have h2 : t.val % 20 = 19 := (flush0_14 t).mp hf
  show (cfg0.win 14).cut (grid0.coords t) ((dats m 0 c).after 14 t) = _
  rw [after0_14, (out_sums m c t h2).1]
  generalize tot (lossG m c) 200000 50 = S
  funext j
  rfl

theorem flushed15_eq (t : Fin cfg0.N) (hf : (cfg0.win 15).flush t = true) :
    (dats m 0 c).flushed 15 t = ((cfg0.win 15).blk t).view.read (Elt Ideal) (fun _ => tot (regG m c) 199999 50) := by
  have h2 : t.val % 20 = 19 := (flush0_15 t).mp hf
  show (cfg0.win 15).cut (grid0.coords t) ((dats m 0 c).after 15 t) = _
  rw [after0_15, (out_sums m c t h2).2]
  generalize tot (regG m c) 199999 50 = S
  funext j
  rfl

theorem final14 : (dats m 0 c).arrAt 14 cfg0.N = fun _ => tot (lossG m c) 200000 50 :=
  (dats m 0 c).arrAt_eq_of_cover 14 (fun _ => tot (lossG m c) 200000 50) (flushed14_eq m c) fun i =>
    ⟨lastPoint, (flush0_14 lastPoint).mpr rfl, by
      rw [mem_blk14]
      obtain ⟨-, -, -, -, -, -, e0, e1, -⟩ := idx_out lastPoint
      have h0 : (i 0).val < 1 := (i 0).isLt
      have h1 : (i 1).val < 1 := (i 1).isLt
      intro a
      match a with
      | ⟨0, _⟩ => show win0_14.index lastPoint (0 : Fin 2) * 1 ≤ (i 0).val ∧ (i 0).val < win0_14.index lastPoint (0 : Fin 2) * 1 + 1
                  rw [e0]; omega
      | ⟨1, _⟩ => show win0_14.index lastPoint (1 : Fin 2) * 1 ≤ (i 1).val ∧ (i 1).val < win0_14.index lastPoint (1 : Fin 2) * 1 + 1
                  rw [e1]; omega⟩

theorem final15 : (dats m 0 c).arrAt 15 cfg0.N = fun _ => tot (regG m c) 199999 50 :=
  (dats m 0 c).arrAt_eq_of_cover 15 (fun _ => tot (regG m c) 199999 50) (flushed15_eq m c) fun i =>
    ⟨lastPoint, (flush0_15 lastPoint).mpr rfl, by
      rw [mem_blk15]
      obtain ⟨-, -, -, -, -, -, -, -, e0, e1⟩ := idx_out lastPoint
      have h0 : (i 0).val < 1 := (i 0).isLt
      have h1 : (i 1).val < 1 := (i 1).isLt
      intro a
      match a with
      | ⟨0, _⟩ => show win0_15.index lastPoint (0 : Fin 2) * 1 ≤ (i 0).val ∧ (i 0).val < win0_15.index lastPoint (0 : Fin 2) * 1 + 1
                  rw [e0]; omega
      | ⟨1, _⟩ => show win0_15.index lastPoint (1 : Fin 2) * 1 ≤ (i 1).val ∧ (i 1).val < win0_15.index lastPoint (1 : Fin 2) * 1 + 1
                  rw [e1]; omega⟩

/-! # The host operations after the launch -/

/-- When the launch starts, the buffer of the exponentials holds exp of the first argument. -/
theorem V_v0 : (V m c main_v0 : S20.Idx → EReal) = (Host.exp (F := Ideal) (φ := .f32) (A0 m c) : S20.Idx → EReal) := by
  show StableHlo.after hostOps0 (fun b => m (c, b)) (Proc.devRef .tc main_v0) = _
  after_results

/-- The bone lengths' sum, from zero. -/
def boneSum : EReal := 0 + ∑ i : S20.Idx, Ideal.exp (A0 m c i)

/-- The scalar result. -/
def KT : S_.Idx → EReal :=
  fun _ => totalOf (boneSum m c) (KX m c) (KY m c) (KZ m c) (A7 m c) (A8 m c) (A9 m c)

theorem tail_eq : Pipeline.afterTail₀ cfgs (dats m) 0 (V0 m) [hostOps1] c main_v18 = KT m c := by
  unfold Pipeline.afterTail₀
  show StableHlo.after hostOps1 _ (Proc.devRef .tc main_v18) = _
  after_results
  have e14 : Pipeline.withArrays (cfgs 0).spec c (V0 m c) (fun w => (dats m 0 c).arrAt w (cfgs 0).N) (Proc.devRef .tc main_v9_3)
      = (fun _ => tot (lossG m c) 200000 50) :=
    (Pipeline.withArrays_arr spec0 launch0.win.arr_inj c (V0 m c) _ 14).trans (final14 m c)
  have e15 : Pipeline.withArrays (cfgs 0).spec c (V0 m c) (fun w => (dats m 0 c).arrAt w (cfgs 0).N) (Proc.devRef .tc main_v9_4)
      = (fun _ => tot (regG m c) 199999 50) :=
    (Pipeline.withArrays_arr spec0 launch0.win.arr_inj c (V0 m c) _ 15).trans (final15 m c)
  have e0 : Pipeline.withArrays (cfgs 0).spec c (V0 m c) (fun w => (dats m 0 c).arrAt w (cfgs 0).N) (Proc.devRef .tc main_v0)
      = (Host.exp (F := Ideal) (φ := .f32) (A0 m c) : S20.Idx → EReal) :=
    (Pipeline.withArrays_of_ne spec0 c (V0 m c) _ main_v0 (by decide : ∀ w, Pipeline.arrRef spec0 w ≠ main_v0)).trans (V_v0 m c)
  rw [e14, e15, e0]
  have hb : Host.reduceAdd (Host.exp (F := Ideal) (φ := .f32) (A0 m c)) (constant (F := Ideal) S_ .f32 0x00000000#32) reducesTo_S20_S_d0 h_S_ ix0
      = boneSum m c := by
    show Ideal.hostReduceAdd reducesTo_S20_S_d0 (Host.exp (F := Ideal) (φ := .f32) (A0 m c)) (Ideal.ofBits .f32 0x00000000#32) ix0 = _
    rw [Ideal.hostReduceAdd_total _ (fun b => b.elim0), Ideal.ofBits_zero_f32]
    rfl
  funext j
  obtain rfl := eq_ix0 j
  generalize hl : tot (lossG m c) 200000 50 = ls
  generalize hr : tot (regG m c) 199999 50 = rs
  show Ideal.div ls (Ideal.ofBits .f32 0x4B189680#32)
      + Ideal.ofBits .f32 0x3A83126F#32
        * Host.reduceAdd (Host.exp (F := Ideal) (φ := .f32) (A0 m c)) (constant (F := Ideal) S_ .f32 0x00000000#32) reducesTo_S20_S_d0 h_S_ ix0
      + Ideal.ofBits .f32 0x3DCCCCCD#32 * Ideal.div rs (Ideal.ofBits .f32 0x4B18964E#32) = KT m c ix0
  rw [hb]
  unfold KT totalOf totalE
  show _ = Ideal.div (0 + tot (lossG m c) 200000 50) _ + _ * boneSum m c + _ * Ideal.div (0 + tot (regG m c) 199999 50) _
  rw [zero_add, zero_add, hl, hr]

end Cert.KernelIdeal.Value

end
-- ==== Proof.KFinal.lean ====
/-
  The kernel program's run, read: every weakly fair execution ends with the three coordinate results at KX, KY, KZ,
  the scalar result at KT (KInv.lean), and the ten arguments as launched.
-/
import proofs.«158102_j3590592659458_1_alg».proof.Proof.KInv
import proofs.«158102_j3590592659458_1_alg».proof.Proof.KFrameRun

noncomputable section

namespace Cert.KernelIdeal.Value

open Cert.KernelIdeal Cert.KernelIdeal.Gen Cert.KernelIdeal.GenP Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The frame run re-posted: each result at its function of the arguments, the arguments unchanged. -/
theorem run : θ_run defs (onTc (τ := τ) (main (F := Ideal))) ⟨m, fun _ => 0, ρ⟩ fun r => ∀ c : Dev nD,
      r.2.mem ((c.tc : Thread nD τ).loc main_v9_0) = KX m c
      ∧ r.2.mem ((c.tc : Thread nD τ).loc main_v9_1) = KY m c
      ∧ r.2.mem ((c.tc : Thread nD τ).loc main_v9_2) = KZ m c
      ∧ r.2.mem ((c.tc : Thread nD τ).loc main_v18) = KT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 11).trans (final11 m c), ((h c).1 12).trans (final12 m c),
      ((h c).1 13).trans (final13 m c),
      ((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).1 5).trans (((dats m 0 c).arrAt_in 5 rfl _).trans ((A_eq m c 5).trans (V_main_arg1 m c))),
      ((h c).1 6).trans (((dats m 0 c).arrAt_in 6 rfl _).trans ((A_eq m c 6).trans (V_main_arg2 m c))),
      ((h c).1 7).trans (((dats m 0 c).arrAt_in 7 rfl _).trans ((A_eq m c 7).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c)))⟩)
    (run_main m ρ)

end Cert.KernelIdeal.Value

end
-- ==== Proof.RefTerms.lean ====
/-
  The reference program's results as terms of its ten argument arrays, at any float instance.

  A skeleton's joint positions by forward kinematics along tree paths: with bone lengths exp(lines) picked per limb
  by a fixed index table, every limb's direction (ax, ay, az) is scaled to length * a / (|a| + eps) (step), and joint j
  of frame i sits at the root plus the sum of the steps of the limbs on the path from the root to j: a product
  with the fixed 0/1 path matrix (pos). The scalar result adds three means: the weighted squared distance to the
  targets in x and y (lossArr), the bone lengths' sum, and the squared frame-to-frame displacement (regArr).
-/
import proofs.«158102_j3590592659458_1_alg».proof.Proof.Gen.ReferenceIdeal

noncomputable section

namespace Cert.ReferenceIdeal.Joints

open Cert.ReferenceIdeal Cert.ReferenceIdeal.Gen Idealize.ShloMosaic Idealize.ShloMosaic.TcCoe

variable {F : FTy → Type} [FloatOps F]

/-- An f32 array of shape s at the instance F. -/
abbrev Arr (F : FTy → Type) [FloatOps F] (s : Shape) : Type := (⟨s, .f32⟩ : BufTy).Contents (Elt F)

/-- The limb-to-bone index table: the printed constant. -/
def boneTable : (⟨S49, .i32⟩ : BufTy).Contents (Elt F) := fun i => lit0 (S49.rowMajor i)

/-- The table as the gather's column of start indices (a negative entry would be wrapped by the bone count; there is none). -/
def boneIdx : (⟨S49x1, .i32⟩ : BufTy).Contents (Elt F) :=
  broadcastInDim S49x1 ![0] bcast_S49_S49x1_0
    (select (cmpi .slt (boneTable (F := F)) (broadcastInDim S49 ![] bcast_S_S49 (constantI S_ 32 0#32)))
      (addi (boneTable (F := F)) (broadcastInDim S49 ![] bcast_S_S49 (constantI S_ 32 20#32))) (boneTable (F := F)))

/-- The path matrix: entry (k, j) is 1 when limb k lies on the path from the root to joint j. -/
def pathT : Arr F S49x50 := fun i => FloatOps.ofBits .f32 (lit1 (S49x50.rowMajor i))

/-- The bone length of every limb. -/
def limbs (a0 : Arr F S20) : Arr F S49 :=
  Host.gather gather_S20_S49x1_S49_n_0_n_n_0_1_1 (Host.exp a0) (boneIdx (F := F))

/-- A direction's length plus eps, entry by entry. -/
def norm (a b c : Arr F S200000x49) : Arr F S200000x49 :=
  addf (Host.sqrt (addf (addf (mulf a a) (mulf b b)) (mulf c c)))
    (broadcastInDim S200000x49 ![] bcast_S_S200000x49 (constant S_ .f32 0x2EDBE6FF#32))

/-- One coordinate u of every limb's step: bone length times direction over the direction's length. -/
def step (a0 : Arr F S20) (u a b c : Arr F S200000x49) : Arr F S200000x49 :=
  Host.divf (mulf (broadcastInDim S200000x49 ![0, 1] bcast_S1x49_S200000x49_0_1
      (broadcastInDim S1x49 ![1] bcast_S49_S1x49_1 (limbs a0))) u) (norm a b c)

/-- One coordinate of every joint: the root plus the steps along the joint's path. -/
def pos (a0 : Arr F S20) (r : Arr F S200000x1) (u a b c : Arr F S200000x49) : Arr F S200000x50 :=
  addf (broadcastInDim S200000x50 ![0, 1] bcast_S200000x1_S200000x50_0_1 r)
    (Host.dotGeneral dot_S200000x49_S49x50_S200000x50_1_0_0_1_n_n none (step a0 u a b c) (pathT (F := F)))

/-- The weighted squared distance to the targets, entry by entry. -/
def lossArr (X Y tx ty w : Arr F S200000x50) : Arr F S200000x50 :=
  addf (mulf w (mulf (subf X tx) (subf X tx))) (mulf w (mulf (subf Y ty) (subf Y ty)))

/-- A coordinate's change from each frame to the next. -/
def diff (X : Arr F S200000x50) : Arr F S199999x50 :=
  subf (extractStridedSlice S199999x50 ![0, 0] X slices_S200000x50_S199999x50_0_0)
    (extractStridedSlice S199999x50 ![1, 0] X slices_S200000x50_S199999x50_1_0)

/-- The squared displacement from each frame to the next, entry by entry. -/
def regArr (X Y Z : Arr F S200000x50) : Arr F S199999x50 :=
  addf (addf (mulf (diff X) (diff X)) (mulf (diff Y) (diff Y))) (mulf (diff Z) (diff Z))

/-- The sum of all entries, from zero. -/
def lossSum (A : Arr F S200000x50) : Arr F S_ :=
  Host.reduceAdd A (constant S_ .f32 0x00000000#32) reducesTo_S200000x50_S_d0_1 h_S_

/-- The sum of all entries, from zero. -/
def regSum (A : Arr F S199999x50) : Arr F S_ :=
  Host.reduceAdd A (constant S_ .f32 0x00000000#32) reducesTo_S199999x50_S_d0_1 h_S_

/-- The scalar result from the two sums: their means, and the bone lengths' sum, weighted. -/
def total (a0 : Arr F S20) (ls rs : Arr F S_) : Arr F S_ :=
  addf (addf (Host.divf ls (constant S_ .f32 0x4B189680#32))
      (mulf (constant S_ .f32 0x3A83126F#32)
        (Host.reduceAdd (Host.exp a0) (constant S_ .f32 0x00000000#32) reducesTo_S20_S_d0 h_S_)))
    (mulf (constant S_ .f32 0x3DCCCCCD#32) (Host.divf rs (constant S_ .f32 0x4B18964E#32)))

/-- The three coordinate arrays and the scalar, of the arguments. -/
def X (a0 : Arr F S20) (a1 : Arr F S200000x1) (a4 a5 a6 : Arr F S200000x49) : Arr F S200000x50 := pos a0 a1 a4 a4 a5 a6
def Y (a0 : Arr F S20) (a2 : Arr F S200000x1) (a4 a5 a6 : Arr F S200000x49) : Arr F S200000x50 := pos a0 a2 a5 a4 a5 a6
def Z (a0 : Arr F S20) (a3 : Arr F S200000x1) (a4 a5 a6 : Arr F S200000x49) : Arr F S200000x50 := pos a0 a3 a6 a4 a5 a6
def T (a0 : Arr F S20) (a1 a2 a3 : Arr F S200000x1) (a4 a5 a6 : Arr F S200000x49) (a7 a8 a9 : Arr F S200000x50) : Arr F S_ :=
  total a0 (lossSum (lossArr (X a0 a1 a4 a5 a6) (Y a0 a2 a4 a5 a6) a7 a8 a9))
    (regSum (regArr (X a0 a1 a4 a5 a6) (Y a0 a2 a4 a5 a6) (Z a0 a3 a4 a5 a6)))

end Cert.ReferenceIdeal.Joints

end
-- ==== Proof.RefRun.lean ====
/-
  The reference program's run, read back.

  The program is a straight line of 80 host operations followed by the return. Listed in order, the line is a
  fold of the operations' results over the launch contents: every weakly fair execution ends with each buffer at
  that fold's value. Read at the four returned buffers the fold is the composition of the operations' functions,
  which is, operation by operation, the three coordinate arrays X, Y, Z and the scalar T of the arguments; read at
  an argument buffer, which no operation writes, it is the launch contents.
-/
import proofs.«158102_j3590592659458_1_alg».proof.Proof.RefTerms
import Idealize.ShloMosaic.Lib.StableHlo.Run

noncomputable section

namespace Cert.ReferenceIdeal.Joints

open Cert.ReferenceIdeal Cert.ReferenceIdeal.Gen Idealize.ShloMosaic Idealize.ShloMosaic.TcCoe Idealize.SL.Sem Idealize.ShloMosaic.StableHlo

variable {F : FTy → Type} [FloatOps F]

/-- The program's 80 operations, in order. -/
abbrev ops : List (HloOp τ sig (Elt F)) :=
  [ StableHlo.nullary main_c (fun i => lit0 (S49.rowMajor i)),
    StableHlo.nullary main_cst (fun i => FloatOps.ofBits .f32 (lit1 (S49x50.rowMajor i))),
    StableHlo.unary main_arg0 main_v0 (Host.exp : (⟨S20, .f32⟩ : BufTy).Contents (Elt F) → (⟨S20, .f32⟩ : BufTy).Contents (Elt F)),
    StableHlo.nullary main_c_0 (constantI S_ 32 0#32),
    StableHlo.unary main_c_0 main_v1 (broadcastInDim S49 ![] bcast_S_S49 : (⟨S_, .i32⟩ : BufTy).Contents (Elt F) → (⟨S49, .i32⟩ : BufTy).Contents (Elt F)),
    StableHlo.binary main_c main_v1 main_v2 (cmpi .slt : (⟨S49, .i32⟩ : BufTy).Contents (Elt F) → (⟨S49, .i32⟩ : BufTy).Contents (Elt F) → (⟨S49, .i1⟩ : BufTy).Contents (Elt F)),
    StableHlo.nullary main_c_1 (constantI S_ 32 20#32),
    StableHlo.unary main_c_1 main_v3 (broadcastInDim S49 ![] bcast_S_S49 : (⟨S_, .i32⟩ : BufTy).Contents (Elt F) → (⟨S49, .i32⟩ : BufTy).Contents (Elt F)),
    StableHlo.binary main_c main_v3 main_v4 (addi : (⟨S49, .i32⟩ : BufTy).Contents (Elt F) → (⟨S49, .i32⟩ : BufTy).Contents (Elt F) → (⟨S49, .i32⟩ : BufTy).Contents (Elt F)),
    StableHlo.ternary main_v2 main_v4 main_c main_v5 (select : (⟨S49, .i1⟩ : BufTy).Contents (Elt F) → (⟨S49, .i32⟩ : BufTy).Contents (Elt F) → (⟨S49, .i32⟩ : BufTy).Contents (Elt F) → (⟨S49, .i32⟩ : BufTy).Contents (Elt F)),
    StableHlo.unary main_v5 main_v6 (broadcastInDim S49x1 ![0] bcast_S49_S49x1_0 : (⟨S49, .i32⟩ : BufTy).Contents (Elt F) → (⟨S49x1, .i32⟩ : BufTy).Contents (Elt F)),
    StableHlo.binary main_v0 main_v6 main_v7 ((fun x i => Host.gather gather_S20_S49x1_S49_n_0_n_n_0_1_1 x i) : (⟨S20, .f32⟩ : BufTy).Contents (Elt F) → (⟨S49x1, .i32⟩ : BufTy).Contents (Elt F) → (⟨S49, .f32⟩ : BufTy).Contents (Elt F)),
    StableHlo.binary main_arg4 main_arg4 main_v8 (mulf : (⟨S200000x49, .f32⟩ : BufTy).Contents (Elt F) → (⟨S200000x49, .f32⟩ : BufTy).Contents (Elt F) → (⟨S200000x49, .f32⟩ : BufTy).Contents (Elt F)),
    StableHlo.binary main_arg5 main_arg5 main_v9 (mulf : (⟨S200000x49, .f32⟩ : BufTy).Contents (Elt F) → (⟨S200000x49, .f32⟩ : BufTy).Contents (Elt F) → (⟨S200000x49, .f32⟩ : BufTy).Contents (Elt F)),
    StableHlo.binary main_v8 main_v9 main_v10 (addf : (⟨S200000x49, .f32⟩ : BufTy).Contents (Elt F) → (⟨S200000x49, .f32⟩ : BufTy).Contents (Elt F) → (⟨S200000x49, .f32⟩ : BufTy).Contents (Elt F)),
    StableHlo.binary main_arg6 main_arg6 main_v11 (mulf : (⟨S200000x49, .f32⟩ : BufTy).Contents (Elt F) → (⟨S200000x49, .f32⟩ : BufTy).Contents (Elt F) → (⟨S200000x49, .f32⟩ : BufTy).Contents (Elt F)),
    StableHlo.binary main_v10 main_v11 main_v12 (addf : (⟨S200000x49, .f32⟩ : BufTy).Contents (Elt F) → (⟨S200000x49, .f32⟩ : BufTy).Contents (Elt F) → (⟨S200000x49, .f32⟩ : BufTy).Contents (Elt F)),
    StableHlo.unary main_v12 main_v13 (Host.sqrt : (⟨S200000x49, .f32⟩ : BufTy).Contents (Elt F) → (⟨S200000x49, .f32⟩ : BufTy).Contents (Elt F)),
    StableHlo.nullary main_cst_2 (constant S_ .f32 0x2EDBE6FF#32),
    StableHlo.unary main_cst_2 main_v14 (broadcastInDim S200000x49 ![] bcast_S_S200000x49 : (⟨S_, .f32⟩ : BufTy).Contents (Elt F) → (⟨S200000x49, .f32⟩ : BufTy).Contents (Elt F)),
    StableHlo.binary main_v13 main_v14 main_v15 (addf : (⟨S200000x49, .f32⟩ : BufTy).Contents (Elt F) → (⟨S200000x49, .f32⟩ : BufTy).Contents (Elt F) → (⟨S200000x49, .f32⟩ : BufTy).Contents (Elt F)),
    StableHlo.unary main_v7 main_v16 (broadcastInDim S1x49 ![1] bcast_S49_S1x49_1 : (⟨S49, .f32⟩ : BufTy).Contents (Elt F) → (⟨S1x49, .f32⟩ : BufTy).Contents (Elt F)),
    StableHlo.unary main_v16 main_v17 (broadcastInDim S200000x49 ![0, 1] bcast_S1x49_S200000x49_0_1 : (⟨S1x49, .f32⟩ : BufTy).Contents (Elt F) → (⟨S200000x49, .f32⟩ : BufTy).Contents (Elt F)),
    StableHlo.binary main_v17 main_arg4 main_v18 (mulf : (⟨S200000x49, .f32⟩ : BufTy).Contents (Elt F) → (⟨S200000x49, .f32⟩ : BufTy).Contents (Elt F) → (⟨S200000x49, .f32⟩ : BufTy).Contents (Elt F)),
    StableHlo.binary main_v18 main_v15 main_v19 (Host.divf : (⟨S200000x49, .f32⟩ : BufTy).Contents (Elt F) → (⟨S200000x49, .f32⟩ : BufTy).Contents (Elt F) → (⟨S200000x49, .f32⟩ : BufTy).Contents (Elt F)),
    StableHlo.unary main_v7 main_v20 (broadcastInDim S1x49 ![1] bcast_S49_S1x49_1 : (⟨S49, .f32⟩ : BufTy).Contents (Elt F) → (⟨S1x49, .f32⟩ : BufTy).Contents (Elt F)),
    StableHlo.unary main_v20 main_v21 (broadcastInDim S200000x49 ![0, 1] bcast_S1x49_S200000x49_0_1 : (⟨S1x49, .f32⟩ : BufTy).Contents (Elt F) → (⟨S200000x49, .f32⟩ : BufTy).Contents (Elt F)),
    StableHlo.binary main_v21 main_arg5 main_v22 (mulf : (⟨S200000x49, .f32⟩ : BufTy).Contents (Elt F) → (⟨S200000x49, .f32⟩ : BufTy).Contents (Elt F) → (⟨S200000x49, .f32⟩ : BufTy).Contents (Elt F)),
    StableHlo.binary main_v22 main_v15 main_v23 (Host.divf : (⟨S200000x49, .f32⟩ : BufTy).Contents (Elt F) → (⟨S200000x49, .f32⟩ : BufTy).Contents (Elt F) → (⟨S200000x49, .f32⟩ : BufTy).Contents (Elt F)),
    StableHlo.unary main_v7 main_v24 (broadcastInDim S1x49 ![1] bcast_S49_S1x49_1 : (⟨S49, .f32⟩ : BufTy).Contents (Elt F) → (⟨S1x49, .f32⟩ : BufTy).Contents (Elt F)),
    StableHlo.unary main_v24 main_v25 (broadcastInDim S200000x49 ![0, 1] bcast_S1x49_S200000x49_0_1 : (⟨S1x49, .f32⟩ : BufTy).Contents (Elt F) → (⟨S200000x49, .f32⟩ : BufTy).Contents (Elt F)),
    StableHlo.binary main_v25 main_arg6 main_v26 (mulf : (⟨S200000x49, .f32⟩ : BufTy).Contents (Elt F) → (⟨S200000x49, .f32⟩ : BufTy).Contents (Elt F) → (⟨S200000x49, .f32⟩ : BufTy).Contents (Elt F)),
    StableHlo.binary main_v26 main_v15 main_v27 (Host.divf : (⟨S200000x49, .f32⟩ : BufTy).Contents (Elt F) → (⟨S200000x49, .f32⟩ : BufTy).Contents (Elt F) → (⟨S200000x49, .f32⟩ : BufTy).Contents (Elt F)),
    StableHlo.binary main_v19 main_cst main_v28 ((fun l r => Host.dotGeneral dot_S200000x49_S49x50_S200000x50_1_0_0_1_n_n none l r) : (⟨S200000x49, .f32⟩ : BufTy).Contents (Elt F) → (⟨S49x50, .f32⟩ : BufTy).Contents (Elt F) → (⟨S200000x50, .f32⟩ : BufTy).Contents (Elt F)),
    StableHlo.unary main_arg1 main_v29 (broadcastInDim S200000x50 ![0, 1] bcast_S200000x1_S200000x50_0_1 : (⟨S200000x1, .f32⟩ : BufTy).Contents (Elt F) → (⟨S200000x50, .f32⟩ : BufTy).Contents (Elt F)),
    StableHlo.binary main_v29 main_v28 main_v30 (addf : (⟨S200000x50, .f32⟩ : BufTy).Contents (Elt F) → (⟨S200000x50, .f32⟩ : BufTy).Contents (Elt F) → (⟨S200000x50, .f32⟩ : BufTy).Contents (Elt F)),
    StableHlo.binary main_v23 main_cst main_v31 ((fun l r => Host.dotGeneral dot_S200000x49_S49x50_S200000x50_1_0_0_1_n_n none l r) : (⟨S200000x49, .f32⟩ : BufTy).Contents (Elt F) → (⟨S49x50, .f32⟩ : BufTy).Contents (Elt F) → (⟨S200000x50, .f32⟩ : BufTy).Contents (Elt F)),
    StableHlo.unary main_arg2 main_v32 (broadcastInDim S200000x50 ![0, 1] bcast_S200000x1_S200000x50_0_1 : (⟨S200000x1, .f32⟩ : BufTy).Contents (Elt F) → (⟨S200000x50, .f32⟩ : BufTy).Contents (Elt F)),
    StableHlo.binary main_v32 main_v31 main_v33 (addf : (⟨S200000x50, .f32⟩ : BufTy).Contents (Elt F) → (⟨S200000x50, .f32⟩ : BufTy).Contents (Elt F) → (⟨S200000x50, .f32⟩ : BufTy).Contents (Elt F)),
    StableHlo.binary main_v27 main_cst main_v34 ((fun l r => Host.dotGeneral dot_S200000x49_S49x50_S200000x50_1_0_0_1_n_n none l r) : (⟨S200000x49, .f32⟩ : BufTy).Contents (Elt F) → (⟨S49x50, .f32⟩ : BufTy).Contents (Elt F) → (⟨S200000x50, .f32⟩ : BufTy).Contents (Elt F)),
    StableHlo.unary main_arg3 main_v35 (broadcastInDim S200000x50 ![0, 1] bcast_S200000x1_S200000x50_0_1 : (⟨S200000x1, .f32⟩ : BufTy).Contents (Elt F) → (⟨S200000x50, .f32⟩ : BufTy).Contents (Elt F)),
    StableHlo.binary main_v35 main_v34 main_v36 (addf : (⟨S200000x50, .f32⟩ : BufTy).Contents (Elt F) → (⟨S200000x50, .f32⟩ : BufTy).Contents (Elt F) → (⟨S200000x50, .f32⟩ : BufTy).Contents (Elt F)),
    StableHlo.binary main_v30 main_arg7 main_v37 (subf : (⟨S200000x50, .f32⟩ : BufTy).Contents (Elt F) → (⟨S200000x50, .f32⟩ : BufTy).Contents (Elt F) → (⟨S200000x50, .f32⟩ : BufTy).Contents (Elt F)),
    StableHlo.binary main_v37 main_v37 main_v38 (mulf : (⟨S200000x50, .f32⟩ : BufTy).Contents (Elt F) → (⟨S200000x50, .f32⟩ : BufTy).Contents (Elt F) → (⟨S200000x50, .f32⟩ : BufTy).Contents (Elt F)),
    StableHlo.binary main_arg9 main_v38 main_v39 (mulf : (⟨S200000x50, .f32⟩ : BufTy).Contents (Elt F) → (⟨S200000x50, .f32⟩ : BufTy).Contents (Elt F) → (⟨S200000x50, .f32⟩ : BufTy).Contents (Elt F)),
    StableHlo.binary main_v33 main_arg8 main_v40 (subf : (⟨S200000x50, .f32⟩ : BufTy).Contents (Elt F) → (⟨S200000x50, .f32⟩ : BufTy).Contents (Elt F) → (⟨S200000x50, .f32⟩ : BufTy).Contents (Elt F)),
    StableHlo.binary main_v40 main_v40 main_v41 (mulf : (⟨S200000x50, .f32⟩ : BufTy).Contents (Elt F) → (⟨S200000x50, .f32⟩ : BufTy).Contents (Elt F) → (⟨S200000x50, .f32⟩ : BufTy).Contents (Elt F)),
    StableHlo.binary main_arg9 main_v41 main_v42 (mulf : (⟨S200000x50, .f32⟩ : BufTy).Contents (Elt F) → (⟨S200000x50, .f32⟩ : BufTy).Contents (Elt F) → (⟨S200000x50, .f32⟩ : BufTy).Contents (Elt F)),
    StableHlo.binary main_v39 main_v42 main_v43 (addf : (⟨S200000x50, .f32⟩ : BufTy).Contents (Elt F) → (⟨S200000x50, .f32⟩ : BufTy).Contents (Elt F) → (⟨S200000x50, .f32⟩ : BufTy).Contents (Elt F)),
    StableHlo.nullary main_cst_3 (constant S_ .f32 0x00000000#32),
    StableHlo.binary main_v43 main_cst_3 main_v44 ((fun x v => Host.reduceAdd x v reducesTo_S200000x50_S_d0_1 h_S_) : (⟨S200000x50, .f32⟩ : BufTy).Contents (Elt F) → (⟨S_, .f32⟩ : BufTy).Contents (Elt F) → (⟨S_, .f32⟩ : BufTy).Contents (Elt F)),
    StableHlo.nullary main_cst_4 (constant S_ .f32 0x4B189680#32),
    StableHlo.binary main_v44 main_cst_4 main_v45 (Host.divf : (⟨S_, .f32⟩ : BufTy).Contents (Elt F) → (⟨S_, .f32⟩ : BufTy).Contents (Elt F) → (⟨S_, .f32⟩ : BufTy).Contents (Elt F)),
    StableHlo.unary main_arg0 main_v46 (Host.exp : (⟨S20, .f32⟩ : BufTy).Contents (Elt F) → (⟨S20, .f32⟩ : BufTy).Contents (Elt F)),
    StableHlo.nullary main_cst_5 (constant S_ .f32 0x00000000#32),
    StableHlo.binary main_v46 main_cst_5 main_v47 ((fun x v => Host.reduceAdd x v reducesTo_S20_S_d0 h_S_) : (⟨S20, .f32⟩ : BufTy).Contents (Elt F) → (⟨S_, .f32⟩ : BufTy).Contents (Elt F) → (⟨S_, .f32⟩ : BufTy).Contents (Elt F)),
    StableHlo.unary main_v30 main_v48 ((extractStridedSlice S199999x50 ![0, 0] · slices_S200000x50_S199999x50_0_0) : (⟨S200000x50, .f32⟩ : BufTy).Contents (Elt F) → (⟨S199999x50, .f32⟩ : BufTy).Contents (Elt F)),
    StableHlo.unary main_v30 main_v49 ((extractStridedSlice S199999x50 ![1, 0] · slices_S200000x50_S199999x50_1_0) : (⟨S200000x50, .f32⟩ : BufTy).Contents (Elt F) → (⟨S199999x50, .f32⟩ : BufTy).Contents (Elt F)),
    StableHlo.binary main_v48 main_v49 main_v50 (subf : (⟨S199999x50, .f32⟩ : BufTy).Contents (Elt F) → (⟨S199999x50, .f32⟩ : BufTy).Contents (Elt F) → (⟨S199999x50, .f32⟩ : BufTy).Contents (Elt F)),
    StableHlo.unary main_v33 main_v51 ((extractStridedSlice S199999x50 ![0, 0] · slices_S200000x50_S199999x50_0_0) : (⟨S200000x50, .f32⟩ : BufTy).Contents (Elt F) → (⟨S199999x50, .f32⟩ : BufTy).Contents (Elt F)),
    StableHlo.unary main_v33 main_v52 ((extractStridedSlice S199999x50 ![1, 0] · slices_S200000x50_S199999x50_1_0) : (⟨S200000x50, .f32⟩ : BufTy).Contents (Elt F) → (⟨S199999x50, .f32⟩ : BufTy).Contents (Elt F)),
    StableHlo.binary main_v51 main_v52 main_v53 (subf : (⟨S199999x50, .f32⟩ : BufTy).Contents (Elt F) → (⟨S199999x50, .f32⟩ : BufTy).Contents (Elt F) → (⟨S199999x50, .f32⟩ : BufTy).Contents (Elt F)),
    StableHlo.unary main_v36 main_v54 ((extractStridedSlice S199999x50 ![0, 0] · slices_S200000x50_S199999x50_0_0) : (⟨S200000x50, .f32⟩ : BufTy).Contents (Elt F) → (⟨S199999x50, .f32⟩ : BufTy).Contents (Elt F)),
    StableHlo.unary main_v36 main_v55 ((extractStridedSlice S199999x50 ![1, 0] · slices_S200000x50_S199999x50_1_0) : (⟨S200000x50, .f32⟩ : BufTy).Contents (Elt F) → (⟨S199999x50, .f32⟩ : BufTy).Contents (Elt F)),
    StableHlo.binary main_v54 main_v55 main_v56 (subf : (⟨S199999x50, .f32⟩ : BufTy).Contents (Elt F) → (⟨S199999x50, .f32⟩ : BufTy).Contents (Elt F) → (⟨S199999x50, .f32⟩ : BufTy).Contents (Elt F)),
    StableHlo.binary main_v50 main_v50 main_v57 (mulf : (⟨S199999x50, .f32⟩ : BufTy).Contents (Elt F) → (⟨S199999x50, .f32⟩ : BufTy).Contents (Elt F) → (⟨S199999x50, .f32⟩ : BufTy).Contents (Elt F)),
    StableHlo.binary main_v53 main_v53 main_v58 (mulf : (⟨S199999x50, .f32⟩ : BufTy).Contents (Elt F) → (⟨S199999x50, .f32⟩ : BufTy).Contents (Elt F) → (⟨S199999x50, .f32⟩ : BufTy).Contents (Elt F)),
    StableHlo.binary main_v57 main_v58 main_v59 (addf : (⟨S199999x50, .f32⟩ : BufTy).Contents (Elt F) → (⟨S199999x50, .f32⟩ : BufTy).Contents (Elt F) → (⟨S199999x50, .f32⟩ : BufTy).Contents (Elt F)),
    StableHlo.binary main_v56 main_v56 main_v60 (mulf : (⟨S199999x50, .f32⟩ : BufTy).Contents (Elt F) → (⟨S199999x50, .f32⟩ : BufTy).Contents (Elt F) → (⟨S199999x50, .f32⟩ : BufTy).Contents (Elt F)),
    StableHlo.binary main_v59 main_v60 main_v61 (addf : (⟨S199999x50, .f32⟩ : BufTy).Contents (Elt F) → (⟨S199999x50, .f32⟩ : BufTy).Contents (Elt F) → (⟨S199999x50, .f32⟩ : BufTy).Contents (Elt F)),
    StableHlo.nullary main_cst_6 (constant S_ .f32 0x00000000#32),
    StableHlo.binary main_v61 main_cst_6 main_v62 ((fun x v => Host.reduceAdd x v reducesTo_S199999x50_S_d0_1 h_S_) : (⟨S199999x50, .f32⟩ : BufTy).Contents (Elt F) → (⟨S_, .f32⟩ : BufTy).Contents (Elt F) → (⟨S_, .f32⟩ : BufTy).Contents (Elt F)),
    StableHlo.nullary main_cst_7 (constant S_ .f32 0x4B18964E#32),
    StableHlo.binary main_v62 main_cst_7 main_v63 (Host.divf : (⟨S_, .f32⟩ : BufTy).Contents (Elt F) → (⟨S_, .f32⟩ : BufTy).Contents (Elt F) → (⟨S_, .f32⟩ : BufTy).Contents (Elt F)),
    StableHlo.nullary main_cst_8 (constant S_ .f32 0x3A83126F#32),
    StableHlo.binary main_cst_8 main_v47 main_v64 (mulf : (⟨S_, .f32⟩ : BufTy).Contents (Elt F) → (⟨S_, .f32⟩ : BufTy).Contents (Elt F) → (⟨S_, .f32⟩ : BufTy).Contents (Elt F)),
    StableHlo.binary main_v45 main_v64 main_v65 (addf : (⟨S_, .f32⟩ : BufTy).Contents (Elt F) → (⟨S_, .f32⟩ : BufTy).Contents (Elt F) → (⟨S_, .f32⟩ : BufTy).Contents (Elt F)),
    StableHlo.nullary main_cst_9 (constant S_ .f32 0x3DCCCCCD#32),
    StableHlo.binary main_cst_9 main_v63 main_v66 (mulf : (⟨S_, .f32⟩ : BufTy).Contents (Elt F) → (⟨S_, .f32⟩ : BufTy).Contents (Elt F) → (⟨S_, .f32⟩ : BufTy).Contents (Elt F)),
    StableHlo.binary main_v65 main_v66 main_v67 (addf : (⟨S_, .f32⟩ : BufTy).Contents (Elt F) → (⟨S_, .f32⟩ : BufTy).Contents (Elt F) → (⟨S_, .f32⟩ : BufTy).Contents (Elt F)) ]

/- The two printed windows unfold to the line of the listed operations, then the return. -/
set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
/- Every operation touches TensorCore references only. -/
set_option maxRecDepth 8192 in
theorem ops_sub : (ops : List (HloOp τ sig (Elt F))).Forall fun op => op.bufs ⊆ tcRefs τ sig :=
  ⟨nullary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., binary_bufs_sub .., binary_bufs_sub .., unary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., binary_bufs_sub .., binary_bufs_sub .., binary_bufs_sub .., binary_bufs_sub .., binary_bufs_sub .., binary_bufs_sub .., nullary_bufs_sub .., binary_bufs_sub .., nullary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., binary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub ..⟩

set_option maxRecDepth 8192 in
set_option maxHeartbeats 32000000 in
/-- On every device, for any float values, from any memory with zero counters: every weakly fair execution of
    the program terminates with the three coordinate buffers at X, Y, Z and the scalar buffer at T of the launch
    contents of the arguments, and the ten arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = X (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_v33) = Y (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_v36) = Z (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v67) = T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v30).trans (by after_results_simp <;> rfl),
      (h c main_v33).trans (by after_results_simp <;> rfl),
      (h c main_v36).trans (by after_results_simp <;> rfl),
      (h c main_v67).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.Joints

end
-- ==== Proof.RefRead.lean ====
/-
  The reference's result terms read at coordinates, at the ideal instance (floats are extended reals, every operation exact).

  With l k the bone length of limb k and P k j the 0/1 entry of the path matrix, joint j of frame i has, in each coordinate,
  the root's coordinate plus the sum over the 49 limbs k of l k * u(i,k) / (|(a,b,c)(i,k)| + eps) * P k j: the product with
  the path matrix read at an index is that sum (pos_eq). A sum of all entries from zero is 0 plus the double sum over the
  ranges of frames and joints (lossSum_eq, regSum_eq); the displacement entry of frame i reads the coordinate arrays at
  frames i and i + 1, the two slices being the array shifted by 0 and by 1 frame. The scalar is the three sums combined
  with the printed constants (total_eq), and the whole result is the specification's scalar of the three coordinate arrays (T_eq).
-/
import proofs.«158102_j3590592659458_1_alg».proof.Proof.RefTerms
import proofs.«158102_j3590592659458_1_alg».proof.Proof.Spec
import Idealize.ShloMosaic.Lib.ValueIdx
import Idealize.ShloMosaic.Lib.Pipeline.Value
import Idealize.ShloMosaic.Lib.StackMember
import Idealize.ShloMosaic.PureOps.Ideal.Laws

noncomputable section

open scoped BigOperators

namespace Cert.ReferenceIdeal.Joints

open Cert.ReferenceIdeal Cert.ReferenceIdeal.Gen Idealize.ShloMosaic Idealize.ShloMosaic.ValueIdx Cert.Sums

/-- The bone length of limb k. -/
def lR (a0 : Arr Ideal S20) : Fin 49 → EReal := fun k => limbs a0 (ix1 k)

/-- The path matrix's entry (k, j). -/
def pR : Fin 49 → Fin 50 → EReal := fun k j => pathT (F := Ideal) (ix2 k j)

/-- A direction's length plus eps at frame p and limb k. -/
theorem norm_apply (a b c : Arr Ideal S200000x49) (p : Fin 200000) (k : Fin 49) :
    norm a b c (ix2 p k)
      = Ideal.sqrt (a (ix2 p k) * a (ix2 p k) + b (ix2 p k) * b (ix2 p k) + c (ix2 p k) * c (ix2 p k))
        + _root_.Cert.Joints.eps := rfl

/-- The bone lengths, copied along the frames, read at frame p and limb k. -/
theorem limbs_bcast_apply (a0 : Arr Ideal S20) (p : Fin 200000) (k : Fin 49) :
    broadcastInDim S200000x49 ![0, 1] bcast_S1x49_S200000x49_0_1
        (broadcastInDim S1x49 ![1] bcast_S49_S1x49_1 (limbs a0)) (ix2 p k) = lR a0 k := by
  refine (broadcastInDim_apply _ _ _ (ix2 p k) (ix2 (0 : Fin 1) k) ?_).trans
    (broadcastInDim_apply _ _ _ (ix2 (0 : Fin 1) k) (ix1 k) ?_)
  · intro a
    match a with
    | ⟨0, _⟩ => rfl
    | ⟨1, _⟩ => rfl
  · intro a
    match a with
    | ⟨0, _⟩ => rfl

/-- One coordinate of limb k's step in frame p. -/
theorem step_apply (a0 : Arr Ideal S20) (u a b c : Arr Ideal S200000x49) (p : Fin 200000) (k : Fin 49) :
    step a0 u a b c (ix2 p k)
      = _root_.Cert.Joints.stepE (lR a0 k) (u (ix2 p k)) (a (ix2 p k)) (b (ix2 p k)) (c (ix2 p k)) := by
  unfold step
  show Ideal.div (broadcastInDim S200000x49 ![0, 1] bcast_S1x49_S200000x49_0_1
      (broadcastInDim S1x49 ![1] bcast_S49_S1x49_1 (limbs a0)) (ix2 p k) * u (ix2 p k)) (norm a b c (ix2 p k)) = _
  rw [limbs_bcast_apply, norm_apply]
  rfl

/-- The product with the path matrix at frame p and joint q: the sum over the limbs of the step times the
    path matrix's entry. -/
theorem dot_apply (s : Arr Ideal S200000x49) (p : Fin 200000) (q : Fin 50) :
    Host.dotGeneral (F := Ideal) (φ₁ := .f32) (φ₂ := .f32) dot_S200000x49_S49x50_S200000x50_1_0_0_1_n_n none s
        (pathT (F := Ideal)) (ix2 p q)
      = ∑ k : Fin 49, s (ix2 p k) * pR k q :=
  StackMember.dotGeneral_plain_apply (m := 200000) (n := 50) (k := 49) none s (pathT (F := Ideal)) p q

/-- The root's coordinate, copied along the joints, read at frame p and joint q. -/
theorem root_bcast_apply (r : Arr Ideal S200000x1) (p : Fin 200000) (q : Fin 50) :
    broadcastInDim S200000x50 ![0, 1] bcast_S200000x1_S200000x50_0_1 r (ix2 p q) = r (ix2 p (0 : Fin 1)) := by
  refine broadcastInDim_apply _ _ _ (ix2 p q) (ix2 p (0 : Fin 1)) ?_
  intro a
  match a with
  | ⟨0, _⟩ => rfl
  | ⟨1, _⟩ => rfl

/-- One coordinate of every joint: the root's plus, over the limbs, the step times the path matrix's entry. -/
theorem pos_eq (a0 : Arr Ideal S20) (r : Arr Ideal S200000x1) (u a b c : Arr Ideal S200000x49) :
    pos a0 r u a b c = _root_.Cert.Joints.posArr (lR a0) pR r u a b c := by
  funext i
  obtain ⟨p, q, rfl⟩ : ∃ (p : Fin 200000) (q : Fin 50), i = ix2 p q := ⟨i 0, i 1, eq_ix2 i⟩
  unfold pos
  show broadcastInDim S200000x50 ![0, 1] bcast_S200000x1_S200000x50_0_1 r (ix2 p q)
      + Host.dotGeneral dot_S200000x49_S49x50_S200000x50_1_0_0_1_n_n none (step a0 u a b c) (pathT (F := Ideal)) (ix2 p q) = _
  rw [root_bcast_apply, dot_apply]
  show _ = r (ix2 p (0 : Fin 1)) + ∑ k : Fin 49,
    _root_.Cert.Joints.stepE (lR a0 k) (u (ix2 p k)) (a (ix2 p k)) (b (ix2 p k)) (c (ix2 p k)) * pR k q
  exact congrArg (r (ix2 p (0 : Fin 1)) + ·) (Finset.sum_congr rfl fun k _ => by rw [step_apply])

/-- The loss entry of frame p and joint q. -/
theorem lossArr_apply (X Y tx ty w : Arr Ideal S200000x50) (p : Fin 200000) (q : Fin 50) :
    lossArr X Y tx ty w (ix2 p q) = _root_.Cert.Joints.lossF X Y tx ty w p.val q.val := by
  unfold _root_.Cert.Joints.lossF
  rw [nat2_val, nat2_val, nat2_val, nat2_val, nat2_val]
  rfl

/-- The sum of the loss entries from zero: 0 plus the double sum over 200000 frames and 50 joints. -/
theorem lossSum_eq (X Y tx ty w : Arr Ideal S200000x50) :
    lossSum (lossArr X Y tx ty w) = fun _ => 0 + tot (_root_.Cert.Joints.lossF X Y tx ty w) 200000 50 := by
  funext j
  unfold lossSum
  show Ideal.hostReduceAdd reducesTo_S200000x50_S_d0_1 (lossArr X Y tx ty w) (Ideal.ofBits .f32 0x00000000#32) j = _
  rw [Ideal.hostReduceAdd_total _ (fun b => b.elim0), Ideal.ofBits_zero_f32]
  exact congrArg (0 + ·) (sum_idx_eq_tot _ _ (lossArr_apply X Y tx ty w))

/-- A coordinate's change from frame p to frame p + 1 at joint q. -/
theorem diff_apply (X : Arr Ideal S200000x50) (p : Fin 199999) (q : Fin 50) :
    diff X (ix2 p q) = nat2 X p.val q.val - nat2 X (p.val + 1) q.val := by
  have hp : p.val < 199999 := p.isLt
  rw [nat2_of_lt X p.val q.val (by omega) q.isLt, nat2_of_lt X (p.val + 1) q.val (by omega) q.isLt]
  unfold diff
  show extractStridedSlice S199999x50 ![0, 0] X slices_S200000x50_S199999x50_0_0 (ix2 p q)
      - extractStridedSlice S199999x50 ![1, 0] X slices_S200000x50_S199999x50_1_0 (ix2 p q) = _
  rw [extractStridedSlice_apply ![0, 0] X slices_S200000x50_S199999x50_0_0 (ix2 p q)
      (ix2 (⟨p.val, by omega⟩ : Fin 200000) (⟨q.val, q.isLt⟩ : Fin 50)) (fun a => by
        match a with
        | ⟨0, _⟩ => show p.val = 0 + p.val; omega
        | ⟨1, _⟩ => show q.val = 0 + q.val; omega),
    extractStridedSlice_apply ![1, 0] X slices_S200000x50_S199999x50_1_0 (ix2 p q)
      (ix2 (⟨p.val + 1, by omega⟩ : Fin 200000) (⟨q.val, q.isLt⟩ : Fin 50)) (fun a => by
        match a with
        | ⟨0, _⟩ => show p.val + 1 = 1 + p.val; omega
        | ⟨1, _⟩ => show q.val = 0 + q.val; omega)]

/-- The displacement entry between frames p and p + 1 at joint q. -/
theorem regArr_apply (X Y Z : Arr Ideal S200000x50) (p : Fin 199999) (q : Fin 50) :
    regArr X Y Z (ix2 p q) = _root_.Cert.Joints.regF X Y Z p.val q.val := by
  unfold regArr
  show diff X (ix2 p q) * diff X (ix2 p q) + diff Y (ix2 p q) * diff Y (ix2 p q)
      + diff Z (ix2 p q) * diff Z (ix2 p q) = _
  rw [diff_apply X, diff_apply Y, diff_apply Z]
  rfl

/-- The sum of the displacement entries from zero: 0 plus the double sum over 199999 frames and 50 joints. -/
theorem regSum_eq (X Y Z : Arr Ideal S200000x50) :
    regSum (regArr X Y Z) = fun _ => 0 + tot (_root_.Cert.Joints.regF X Y Z) 199999 50 := by
  funext j
  unfold regSum
  show Ideal.hostReduceAdd reducesTo_S199999x50_S_d0_1 (regArr X Y Z) (Ideal.ofBits .f32 0x00000000#32) j = _
  rw [Ideal.hostReduceAdd_total _ (fun b => b.elim0), Ideal.ofBits_zero_f32]
  exact congrArg (0 + ·) (sum_idx_eq_tot _ _ (regArr_apply X Y Z))

/-- The scalar from the two sums: their quotients by the two counts and the bone lengths' sum (0 plus the sum of the
    exponentials), weighted by the constants. -/
theorem total_eq (a0 : Arr Ideal S20) (ls rs : Arr Ideal S_) :
    total a0 ls rs = fun _ => _root_.Cert.Joints.totalE (ls ix0) (0 + ∑ i : S20.Idx, Ideal.exp (a0 i)) (rs ix0) := by
  funext j
  obtain rfl := eq_ix0 j
  have hb : Host.reduceAdd (Host.exp a0) (constant (F := Ideal) S_ .f32 0x00000000#32) reducesTo_S20_S_d0 h_S_ ix0
      = 0 + ∑ i : S20.Idx, Ideal.exp (a0 i) := by
    show Ideal.hostReduceAdd reducesTo_S20_S_d0 (Host.exp (F := Ideal) (φ := .f32) a0) (Ideal.ofBits .f32 0x00000000#32) ix0 = _
    rw [Ideal.hostReduceAdd_total _ (fun b => b.elim0), Ideal.ofBits_zero_f32]
    rfl
  unfold total
  show Ideal.div (ls ix0) (Ideal.ofBits .f32 0x4B189680#32)
      + Ideal.ofBits .f32 0x3A83126F#32
        * Host.reduceAdd (Host.exp a0) (constant (F := Ideal) S_ .f32 0x00000000#32) reducesTo_S20_S_d0 h_S_ ix0
      + Ideal.ofBits .f32 0x3DCCCCCD#32 * Ideal.div (rs ix0) (Ideal.ofBits .f32 0x4B18964E#32) = _
  rw [hb]
  rfl

/-- The scalar result of the ten arguments: the specification's scalar of the three coordinate arrays and the targets. -/
theorem T_eq (a0 : Arr Ideal S20) (a1 a2 a3 : Arr Ideal S200000x1) (a4 a5 a6 : Arr Ideal S200000x49)
    (a7 a8 a9 : Arr Ideal S200000x50) :
    T a0 a1 a2 a3 a4 a5 a6 a7 a8 a9 = fun _ =>
      _root_.Cert.Joints.totalOf (0 + ∑ i : S20.Idx, Ideal.exp (a0 i))
        (_root_.Cert.Joints.posArr (lR a0) pR a1 a4 a4 a5 a6)
        (_root_.Cert.Joints.posArr (lR a0) pR a2 a5 a4 a5 a6)
        (_root_.Cert.Joints.posArr (lR a0) pR a3 a6 a4 a5 a6) a7 a8 a9 := by
  unfold T X Y Z
  rw [pos_eq, pos_eq, pos_eq, lossSum_eq, regSum_eq, total_eq]
  rfl

end Cert.ReferenceIdeal.Joints

end
-- ==== Proof.Cross.lean ====
/-
  The kernel program and the reference program print the same fixed tables: the limb-to-bone index table (49 entries),
  the 0/1 path matrix (49 x 50 words), and the gather's dimension record. Each program's text carries its own copy;
  the copies agree entry for entry, so the path matrix and the bone lengths built from them are the same functions.
-/
import proofs.«158102_j3590592659458_1_alg».proof.Proof.KRead
import proofs.«158102_j3590592659458_1_alg».proof.Proof.RefTerms

noncomputable section

namespace Cert.Cross

open Idealize.ShloMosaic

/-- The two copies of the index table are one table. -/
theorem lit0_cross : Cert.KernelIdeal.lit0 = Cert.ReferenceIdeal.lit0 := rfl

/-- The two copies of the path matrix's words are one table. -/
theorem lit1_cross : Cert.KernelIdeal.lit1 = Cert.ReferenceIdeal.lit1 := rfl

/-- The path matrix is the same function in both programs, at any float instance. -/
theorem pathT_eq {F : FTy → Type} [FloatOps F] :
    Cert.KernelIdeal.Read.pathT (F := F) = Cert.ReferenceIdeal.Joints.pathT (F := F) := rfl

/-- The bone lengths are the same function of the log-lengths in both programs, at any float instance: the index table,
    the wrap of entries below zero and the gather's dimension record agree. -/
theorem limbs_eq {F : FTy → Type} [FloatOps F] (a0 : (⟨Cert.KernelIdeal.S20, .f32⟩ : BufTy).Contents (Elt F)) :
    Cert.KernelIdeal.Read.limbs (F := F) a0 = Cert.ReferenceIdeal.Joints.limbs (F := F) a0 := rfl

/-- The path matrix is the same function in both programs, over the extended reals. -/
theorem path_cross : (Cert.KernelIdeal.Read.pathT (F := Ideal) : (⟨2, ![49, 50]⟩ : Shape).Idx → EReal)
    = Cert.ReferenceIdeal.Joints.pathT (F := Ideal) := rfl

/-- The bone lengths are the same function of the log-lengths in both programs, over the extended reals. -/
theorem limbs_cross (a0 : (⟨1, ![20]⟩ : Shape).Idx → EReal) :
    (Cert.KernelIdeal.Read.limbs (F := Ideal) a0 : (⟨1, ![49]⟩ : Shape).Idx → EReal)
      = Cert.ReferenceIdeal.Joints.limbs (F := Ideal) a0 := rfl

end Cert.Cross

end
-- ==== Proof.Bridge.lean ====
/-
  The two programs compute the same arrays.

  The reference's three coordinate arrays are posArr of its arguments, its bone lengths and its path matrix
  (RefRead.lean), the kernel's are posArr of its own (KInv.lean); the two programs carry the same index table and the
  same path matrix (Cross.lean), so from equal arguments the arrays are equal, and with them the scalar: both are
  totalOf of the same bone-length sum and the same arrays.
-/
import proofs.«158102_j3590592659458_1_alg».proof.Proof.KInv
import proofs.«158102_j3590592659458_1_alg».proof.Proof.RefRead
import proofs.«158102_j3590592659458_1_alg».proof.Proof.Cross

noncomputable section

open scoped BigOperators

namespace Cert.Bridge

open Idealize.ShloMosaic Idealize.ShloMosaic.TcCoe Idealize.ShloMosaic.ValueIdx Idealize.SL.Sem
open Cert.Joints Cert.Sums

variable (m : (ℓ : Loc Cert.KernelIdeal.nD Cert.KernelIdeal.τ Cert.KernelIdeal.sig) → Buf (Elt Ideal) ℓ) (c : Dev Cert.KernelIdeal.nD)

open Cert.KernelIdeal.Value in
/-- The kernel program's bone lengths are the reference program's. -/
theorem lengths_eq : Cert.ReferenceIdeal.Joints.lR (A0 m c) = lK m c := by
  funext k
  exact (congrFun (Cert.Cross.limbs_cross (A0 m c)) (ix1 k)).symm

open Cert.KernelIdeal.Value in
/-- The kernel program's path matrix is the reference program's. -/
theorem path_eq : Cert.ReferenceIdeal.Joints.pR = pK := by
  funext k q
  exact (congrFun Cert.Cross.path_cross (ix2 k q)).symm

open Cert.KernelIdeal.Value in
theorem X_eq : Cert.ReferenceIdeal.Joints.X (F := Ideal) (A0 m c) (A1 m c) (A4 m c) (A5 m c) (A6 m c) = KX m c := by
  unfold Cert.ReferenceIdeal.Joints.X KX
  rw [Cert.ReferenceIdeal.Joints.pos_eq, lengths_eq, path_eq]

open Cert.KernelIdeal.Value in
theorem Y_eq : Cert.ReferenceIdeal.Joints.Y (F := Ideal) (A0 m c) (A2 m c) (A4 m c) (A5 m c) (A6 m c) = KY m c := by
  unfold Cert.ReferenceIdeal.Joints.Y KY
  rw [Cert.ReferenceIdeal.Joints.pos_eq, lengths_eq, path_eq]

open Cert.KernelIdeal.Value in
theorem Z_eq : Cert.ReferenceIdeal.Joints.Z (F := Ideal) (A0 m c) (A3 m c) (A4 m c) (A5 m c) (A6 m c) = KZ m c := by
  unfold Cert.ReferenceIdeal.Joints.Z KZ
  rw [Cert.ReferenceIdeal.Joints.pos_eq, lengths_eq, path_eq]

open Cert.KernelIdeal.Value in
theorem T_eq : Cert.ReferenceIdeal.Joints.T (F := Ideal) (A0 m c) (A1 m c) (A2 m c) (A3 m c) (A4 m c) (A5 m c) (A6 m c) (A7 m c) (A8 m c) (A9 m c)
    = KT m c := by
  rw [Cert.ReferenceIdeal.Joints.T_eq, lengths_eq, path_eq]
  rfl

end Cert.Bridge

end
-- ==== Proof.lean ====
/-
  The certificate: a skeleton's joint positions by forward kinematics, computed block by block by the kernel and in
  one piece by the reference, with the loss and the smoothness term accumulated across the blocks.

  The three frames: the word-level kernel's and the idealized kernel's are the generated frame runs; the reference is a
  host program whose run is read back operation by operation (RefRun.lean). The idealization rewrote nothing, so
  preserves is trivial. The algebraic claim: the kernel's results (KFinal.lean) and the reference's (RefRun.lean) are
  the same functions of the arguments (Bridge.lean). The only law used between the two sides is that a sum of
  extended reals over all frames is the sum, block after block, of the blocks' sums and of the terms across the block
  boundaries: commutativity and associativity of addition, which hold at the infinities too, so the precondition is
  never opened.
-/
import proofs.«158102_j3590592659458_1_alg».proof.Defs
import proofs.«158102_j3590592659458_1_alg».proof.Proof.Gen.Kernel
import proofs.«158102_j3590592659458_1_alg».proof.Proof.WFrameRun
import proofs.«158102_j3590592659458_1_alg».proof.Proof.Gen.KernelIdeal
import proofs.«158102_j3590592659458_1_alg».proof.Proof.Gen.ReferenceIdeal
import proofs.«158102_j3590592659458_1_alg».proof.Proof.Gen.Pre_finite_inputs
import proofs.«158102_j3590592659458_1_alg».proof.Proof.KFinal
import proofs.«158102_j3590592659458_1_alg».proof.Proof.RefRun
import proofs.«158102_j3590592659458_1_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.GenP.frame m ρ

theorem frame_pi : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2.2.2) (Cert.ReferenceIdeal.Joints.run (F := Ideal) m ρ)

theorem preserves : Cert.preserves_Kernel_KernelIdeal := trivial

open Cert.KernelIdeal.Value in
theorem algebraic : Cert.algebraic_KernelIdeal_ReferenceIdeal := by
  intro m ρ m' ρ' _ hagree
  refine ⟨fun c => KX m c, fun c => KY m c, fun c => KZ m c, fun c => KT m c, Cert.KernelIdeal.Value.run m ρ, ?_⟩
  refine (θ_run Cert.ReferenceIdeal.defs _ _).mono (fun _ h c => ?_) (Cert.ReferenceIdeal.Joints.run (F := Ideal) m' ρ')
  obtain ⟨hx, hy, hz, ht, hargs⟩ := h c
  obtain ⟨g0, g1, g2, g3, g4, g5, g6, g7, g8, g9⟩ := hagree c
  refine ⟨hx.trans ?_, hy.trans ?_, hz.trans ?_, ht.trans ?_, hargs⟩
  · rw [g0, g1, g4, g5, g6]; exact Cert.Bridge.X_eq m c
  · rw [g0, g2, g4, g5, g6]; exact Cert.Bridge.Y_eq m c
  · rw [g0, g3, g4, g5, g6]; exact Cert.Bridge.Z_eq m c
  · rw [g0, g1, g2, g3, g4, g5, g6, g7, g8, g9]; exact Cert.Bridge.T_eq m c

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
